-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S200000x512 : Shape := ⟨2, ![200000, 512]⟩
abbrev S1 : Shape := ⟨1, ![1]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_
  bcast_S_S1 : S_.BroadcastsInDim S1 (![] : Fin 0 → Fin S1.rank)
  reducesTo_S1_S_d0 : S1.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg1 : IVec S512 32) (main_v13 : IVec S_ 1) (main_v15 : IVec S512 1) (main_c_5 : IVec S_ 1) : IVec S_ 1 :=
  let main_v16 : IVec S_ 1 := (fun x v => Host.reduce IntOp.andi x v reducesTo_S512_S_d0 h_S_) main_v15 main_c_5
  let main_v17 : IVec S_ 1 := andi main_v13 main_v16
  let main_c_6 : IVec S_ 32 := constantI S_ 32 200000#32
  let main_v18 : IVec S512 32 := broadcastInDim S512 ![] bcast_S_S512 main_c_6
  let main_v19 : IVec S512 1 := cmpi .slt main_arg1 main_v18
  let main_c_7 : IVec S_ 1 := constantI S_ 1 1#1
  let main_v20 : IVec S_ 1 := (fun x v => Host.reduce IntOp.andi x v reducesTo_S512_S_d0 h_S_) main_v19 main_c_7
  let main_v21 : IVec S_ 1 := andi main_v17 main_v20
  main_v21

def fn {F : FTy → Type} [FloatOps F] (main_arg0 : FVec F S512x512 .f32) (main_arg1 : IVec S512 32) (main_arg2 : FVec F S200000x512 .f32) (main_arg3 : FVec F S1 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S200000x512 .f32 := Host.absf main_arg2
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S512 32 := broadcastInDim S512 ![] bcast_S_S512 main_c_4
  let main_v15 : IVec S512 1 := cmpi .sge main_arg1 main_v14
  let main_c_5 : IVec S_ 1 := constantI S_ 1 1#1
  fn_part1 (F := F) main_arg1 main_v13 main_v15 main_c_5
-- ==== Kernel.lean ====
abbrev S512x512 : Shape := ⟨2, ![512, 512]⟩
abbrev S512 : Shape := ⟨1, ![512]⟩
abbrev S200000x512 : Shape := ⟨2, ![200000, 512]⟩
abbrev S1 : Shape := ⟨1, ![1]⟩
abbrev S_ : Shape := ⟨0, ![]⟩
abbrev S512x1 : Shape := ⟨2, ![512, 1]⟩
abbrev S1x1 : Shape := ⟨2, ![1, 1]⟩
abbrev S512x200000 : Shape := ⟨2, ![512, 200000]⟩
abbrev S2560x512 : Shape := ⟨2, ![2560, 512]⟩
abbrev S512x2560 : Shape := ⟨2, ![512, 2560]⟩
abbrev S2560 : Shape := ⟨1, ![2560]⟩
abbrev S2560x1 : Shape := ⟨2, ![2560, 1]⟩
abbrev S1x2560 : Shape := ⟨2, ![1, 2560]⟩

abbrev nBuf : Space → Nat
  | .hbm => 81
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S200000x512, .f32⟩
  | .hbm, ⟨3, _⟩ => ⟨S1, .f32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x512, .f32⟩
  | .hbm, ⟨13, _⟩ => ⟨S512x512, .f32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S512x1, .f32⟩
  | .hbm, ⟨28, _⟩ => ⟨S_, .f32⟩
  | .hbm, ⟨29, _⟩ => ⟨S512x1, .f32⟩
  | .hbm, ⟨30, _⟩ => ⟨S512x1, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | .hbm, ⟨56, _⟩ => ⟨S512x1, .f32⟩
  | .hbm, ⟨57, _⟩ => ⟨S_, .f32⟩
  | .hbm, ⟨58, _⟩ => ⟨S512x1, .f32⟩
  | .hbm, ⟨59, _⟩ => ⟨S512x1, .i1⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1x1, .f32⟩
  | .hbm, ⟨78, _⟩ => ⟨S512x1, .i32⟩
  | .hbm, ⟨79, _⟩ => ⟨S512x512, .bf16⟩
  | .hbm, ⟨80, _⟩ => ⟨S512x200000, .f32⟩
  | .local _ .vmem, ⟨0, _⟩ => ⟨S512x512, .bf16⟩
  | .local _ .vmem, ⟨1, _⟩ => ⟨S2560x512, .f32⟩
  | .local _ .vmem, ⟨2, _⟩ => ⟨S2560x512, .f32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S1x1, .f32⟩
  | .local _ .vmem, ⟨7, _⟩ => ⟨S512x2560, .f32⟩
  | .local _ .vmem, ⟨8, _⟩ => ⟨S512x2560, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_cst_13 : Ref sig .tc := ⟨.hbm, 71, rfl⟩
abbrev main_v39 : Ref sig .tc := ⟨.hbm, 72, rfl⟩
abbrev main_v40 : Ref sig .tc := ⟨.hbm, 73, rfl⟩
abbrev main_cst_14 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512 : S_.BroadcastsInDim S512 (![] : Fin 0 → Fin S512.rank)
  reducesTo_S512x1_S_d0_1 : S512x1.ReducesTo [0, 1] S_
  shapeCasts_S1_S_ : S1.ShapeCasts S_
  shapeCasts_S_S1x1 : S_.ShapeCasts S1x1
  shapeCasts_S512_S512x1 : S512.ShapeCasts S512x1
  bitsLt_bf16_f32 : FTy.bits .bf16 < FTy.bits .f32
  inb_S2560x512_S2560x512_0_0 : ∀ a, (![0, 0] : Fin 2 → Nat) a + S2560x512.size a ≤ S2560x512.size a
  h_S2560x512 : 0 < S2560x512.numel
  reduces_S2560x512_S2560 : S2560x512.Reduces [1] S2560
  shapeCasts_S2560_S2560x1 : S2560.ShapeCasts S2560x1
  transposes_S2560x1_p1_0_S1x2560 : S2560x1.Transposes [1, 0] S1x2560
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x2560_S512x2560 : S1x2560.Broadcasts S512x2560
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2560 : S512x1.Broadcasts S512x2560
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  iota_S512x2560_d1_w32 : S512x2560.Iotas .tc 32 [1]
  inb_S512x2560_S512x2560_0_0 : ∀ a, (![0, 0] : Fin 2 → Nat) a + S512x2560.size a ≤ S512x2560.size a
  h_S512x2560 : 0 < S512x2560.numel
  gather_S200000x512_S512x1_S512x512_1_0_n_n_0_1_1512_wf : GatherDims.WF S200000x512 S512x1 S512x512 [1] [0] [] [0] [] 1 ![1, 512]
  dot_S512x512_S2560x512_S512x2560_1_1_0_0_n_n_wf : DotDims.WF S512x512 S2560x512 S512x2560 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2560x512.size a < S200000x512.size a
  hwx0_1 : ∀ i : grid0.Coords, EltTy.bits .f32 = 32 ∨ (Rect.unit (s := S200000x512) (fun a => cc0_transform_1 i a * S2560x512.size a) (fun a => (Pipeline.Clip.of (cc0_transform_1 i a) (S2560x512.size a) (S200000x512.size a)).extent (S2560x512.size a)) fun a => Pipeline.Clip.inb (Pipeline.Clip.ok_of (hstart0_1 i a))).WholeWords (EltTy.packing .f32)
  hwxs0_1 : ∀ i : grid0.Coords, EltTy.bits .f32 = 32 ∨ (Rect.unit (s := S2560x512) (fun _ => 0) (fun a => (Pipeline.Clip.of (cc0_transform_1 i a) (S2560x512.size a) (S200000x512.size a)).extent (S2560x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x2560.size a < S512x200000.size a
  hwx0_6 : ∀ i : grid0.Coords, EltTy.bits .f32 = 32 ∨ (Rect.unit (s := S512x200000) (fun a => cc0_transform_6 i a * S512x2560.size a) (fun a => (Pipeline.Clip.of (cc0_transform_6 i a) (S512x2560.size a) (S512x200000.size a)).extent (S512x2560.size a)) fun a => Pipeline.Clip.inb (Pipeline.Clip.ok_of (hstart0_6 i a))).WholeWords (EltTy.packing .f32)
  hwxs0_6 : ∀ i : grid0.Coords, EltTy.bits .f32 = 32 ∨ (Rect.unit (s := S512x2560) (fun _ => 0) (fun a => (Pipeline.Clip.of (cc0_transform_6 i a) (S512x2560.size a) (S512x200000.size a)).extent (S512x2560.size a)) fun a => (Nat.zero_add _).trans_le (Pipeline.Clip.extent_le (Pipeline.Clip.ok_of (hstart0_6 i a)))).WholeWords (EltTy.packing .f32)

variable [Facts₀]

def gather_S200000x512_S512x1_S512x512_1_0_n_n_0_1_1512 : GatherDims S200000x512 S512x1 S512x512 where
  offsetDims := [1]
  collapsedSliceDims := [0]
  operandBatchingDims := []
  startIndicesBatchingDims := []
  startIndexMap := [0]
  indexVectorDim := 1
  sliceSizes := ![1, 512]
  wf := gather_S200000x512_S512x1_S512x512_1_0_n_n_0_1_1512_wf
def dot_S512x512_S2560x512_S512x2560_1_1_0_0_n_n : DotDims S512x512 S2560x512 S512x2560 where
  lhsContracting := [1]
  rhsContracting := [1]
  lhsNonContracting := [0]
  rhsNonContracting := [0]
  lhsBatch := []
  rhsBatch := []
  wf := dot_S512x512_S2560x512_S512x2560_1_1_0_0_n_n_wf

abbrev win0_0 : Pipeline.Window sig grid0 :=
  Pipeline.Window.ofSpec (Memref.whole main_v45) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S2560x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v44) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v46) S512x2560.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S200000x512 : Shape := ⟨2, ![200000, 512]⟩
abbrev S1 : Shape := ⟨1, ![1]⟩
abbrev S_ : Shape := ⟨0, ![]⟩
abbrev S200000 : Shape := ⟨1, ![200000]⟩
abbrev S200000x1 : Shape := ⟨2, ![200000, 1]⟩
abbrev S512x1 : Shape := ⟨2, ![512, 1]⟩
abbrev S512x200000 : Shape := ⟨2, ![512, 200000]⟩
abbrev S512x2 : Shape := ⟨2, ![512, 2]⟩

abbrev nBuf : Space → Nat
  | .hbm => 111
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S200000x512, .f32⟩
  | .hbm, ⟨3, _⟩ => ⟨S1, .f32⟩
  | .hbm, ⟨4, _⟩ => ⟨S200000x512, .f32⟩
  | .hbm, ⟨5, _⟩ => ⟨S_, .f32⟩
  | .hbm, ⟨6, _⟩ => ⟨S200000, .f32⟩
  | .hbm, ⟨7, _⟩ => ⟨S200000x1, .f32⟩
  | .hbm, ⟨8, _⟩ => ⟨S200000x1, .f32⟩
  | .hbm, ⟨9, _⟩ => ⟨S_, .f32⟩
  | .hbm, ⟨10, _⟩ => ⟨S200000x1, .f32⟩
  | .hbm, ⟨11, _⟩ => ⟨S200000x1, .f32⟩
  | .hbm, ⟨12, _⟩ => ⟨S200000x512, .f32⟩
  | .hbm, ⟨13, _⟩ => ⟨S200000x512, .f32⟩
  | .hbm, ⟨14, _⟩ => ⟨S512x512, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x512, .f32⟩
  | .hbm, ⟨23, _⟩ => ⟨S512x512, .f32⟩
  | .hbm, ⟨24, _⟩ => ⟨S512x200000, .f32⟩
  | .hbm, ⟨25, _⟩ => ⟨S512x200000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S512x200000, .f32⟩
  | .hbm, ⟨30, _⟩ => ⟨S512x200000, .f32⟩
  | .hbm, ⟨31, _⟩ => ⟨S_, .f32⟩
  | .hbm, ⟨32, _⟩ => ⟨S512x200000, .f32⟩
  | .hbm, ⟨33, _⟩ => ⟨S512x200000, .f32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S512x1, .i32⟩
  | .hbm, ⟨51, _⟩ => ⟨S512x2, .i32⟩
  | .hbm, ⟨52, _⟩ => ⟨S512, .f32⟩
  | .hbm, ⟨53, _⟩ => ⟨S512x1, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S_, .f32⟩
  | .hbm, ⟨60, _⟩ => ⟨S512x1, .f32⟩
  | .hbm, ⟨61, _⟩ => ⟨S512x1, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x1, .f32⟩
  | .hbm, ⟨66, _⟩ => ⟨S512x200000, .f32⟩
  | .hbm, ⟨67, _⟩ => ⟨S512x200000, .i1⟩
  | .hbm, ⟨68, _⟩ => ⟨S_, .f32⟩
  | .hbm, ⟨69, _⟩ => ⟨S512x1, .f32⟩
  | .hbm, ⟨70, _⟩ => ⟨S512x1, .i1⟩
  | .hbm, ⟨71, _⟩ => ⟨S_, .f32⟩
  | .hbm, ⟨72, _⟩ => ⟨S512x1, .f32⟩
  | .hbm, ⟨73, _⟩ => ⟨S512x1, .f32⟩
  | .hbm, ⟨74, _⟩ => ⟨S512x1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S512x200000, .f32⟩
  | .hbm, ⟨86, _⟩ => ⟨S512x200000, .f32⟩
  | .hbm, ⟨87, _⟩ => ⟨S512x200000, .f32⟩
  | .hbm, ⟨88, _⟩ => ⟨S512x200000, .f32⟩
  | .hbm, ⟨89, _⟩ => ⟨S512, .f32⟩
  | .hbm, ⟨90, _⟩ => ⟨S_, .i32⟩
  | .hbm, ⟨91, _⟩ => ⟨S512, .i32⟩
  | .hbm, ⟨92, _⟩ => ⟨S512, .i1⟩
  | .hbm, ⟨93, _⟩ => ⟨S_, .i32⟩
  | .hbm, ⟨94, _⟩ => ⟨S512, .i32⟩
  | .hbm, ⟨95, _⟩ => ⟨S512, .i32⟩
  | .hbm, ⟨96, _⟩ => ⟨S512, .i32⟩
  | .hbm, ⟨97, _⟩ => ⟨S_, .i32⟩
  | .hbm, ⟨98, _⟩ => ⟨S512, .i32⟩
  | .hbm, ⟨99, _⟩ => ⟨S512, .i1⟩
  | .hbm, ⟨100, _⟩ => ⟨S_, .i32⟩
  | .hbm, ⟨101, _⟩ => ⟨S512, .i32⟩
  | .hbm, ⟨102, _⟩ => ⟨S512, .i32⟩
  | .hbm, ⟨103, _⟩ => ⟨S512, .i32⟩
  | .hbm, ⟨104, _⟩ => ⟨S512x1, .i32⟩
  | .hbm, ⟨105, _⟩ => ⟨S512x1, .i32⟩
  | .hbm, ⟨106, _⟩ => ⟨S512x2, .i32⟩
  | .hbm, ⟨107, _⟩ => ⟨S512x200000, .f32⟩
  | .hbm, ⟨108, _⟩ => ⟨S_, .f32⟩
  | .hbm, ⟨109, _⟩ => ⟨S512x200000, .f32⟩
  | .hbm, ⟨110, _⟩ => ⟨S512x200000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_cst_13 : Ref sig .tc := ⟨.hbm, 79, rfl⟩
abbrev main_v47 : Ref sig .tc := ⟨.hbm, 80, rfl⟩
abbrev main_v48 : Ref sig .tc := ⟨.hbm, 81, rfl⟩
abbrev main_cst_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_15 : Ref sig .tc := ⟨.hbm, 90, rfl⟩
abbrev main_v56 : Ref sig .tc := ⟨.hbm, 91, rfl⟩
abbrev main_v57 : Ref sig .tc := ⟨.hbm, 92, rfl⟩
abbrev main_c_16 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_17 : Ref sig .tc := ⟨.hbm, 97, rfl⟩
abbrev main_v61 : Ref sig .tc := ⟨.hbm, 98, rfl⟩
abbrev main_v62 : Ref sig .tc := ⟨.hbm, 99, rfl⟩
abbrev main_c_18 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_19 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]

class Facts₀ : Prop where
  reducesTo_S200000x512_S200000_d1 : S200000x512.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x512_0_1 : S200000x1.BroadcastsInDim S200000x512 (![0, 1] : Fin 2 → Fin S200000x512.rank)
  reducesTo_S512x512_S512_d1 : S512x512.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  transposes_S200000x512_S512x200000_1_0 : S200000x512.Transposes [1, 0] S512x200000
  bcast_S_S512x200000 : S_.BroadcastsInDim S512x200000 (![] : Fin 0 → Fin S512x200000.rank)
  bcast_S_S512 : S_.BroadcastsInDim S512 (![] : Fin 0 → Fin S512.rank)
  concatenates_S512x1_S512x1_S512x2_d1 : Shape.Concatenates [S512x1, S512x1] S512x2 1
  bcast_S512x1_S512x200000_0_1 : S512x1.BroadcastsInDim S512x200000 (![0, 1] : Fin 2 → Fin S512x200000.rank)
  reducesTo_S512x1_S_d0_1 : S512x1.ReducesTo [0, 1] S_
  shapeCasts_S1_S_ : S1.ShapeCasts S_
  shapeCasts_S512x1_S512 : S512x1.ShapeCasts S512
  dot_S512x512_S512x200000_S512x200000_1_0_0_1_n_n_wf : DotDims.WF S512x512 S512x200000 S512x200000 [1] [0] [0] [1] [] []
  gather_S512x200000_S512x2_S512_n_01_n_n_01_1_11_wf : GatherDims.WF S512x200000 S512x2 S512 [] [0, 1] [] [0, 1] [] 1 ![1, 1]
  scatter_S512x200000_S512x2_S512_n_01_01_1_wf : ScatterDims.WF S512x200000 S512x2 S512 [] [0, 1] [0, 1] 1

variable [Facts₀]

def dot_S512x512_S512x200000_S512x200000_1_0_0_1_n_n : DotDims S512x512 S512x200000 S512x200000 where
  lhsContracting := [1]
  rhsContracting := [0]
  lhsNonContracting := [0]
  rhsNonContracting := [1]
  lhsBatch := []
  rhsBatch := []
  wf := dot_S512x512_S512x200000_S512x200000_1_0_0_1_n_n_wf
def gather_S512x200000_S512x2_S512_n_01_n_n_01_1_11 : GatherDims S512x200000 S512x2 S512 where
  offsetDims := []
  collapsedSliceDims := [0, 1]
  operandBatchingDims := []
  startIndicesBatchingDims := []
  startIndexMap := [0, 1]
  indexVectorDim := 1
  sliceSizes := ![1, 1]
  wf := gather_S512x200000_S512x2_S512_n_01_n_n_01_1_11_wf
def scatter_S512x200000_S512x2_S512_n_01_01_1 : ScatterDims S512x200000 S512x2 S512 where
  updateWindowDims := []
  insertedWindowDims := [0, 1]
  scatterDimsToOperandDims := [0, 1]
  indexVectorDim := 1
  wf := scatter_S512x200000_S512x2_S512_n_01_01_1_wf

class Facts : Prop extends Facts₀ where

variable [Facts]
-- ==== Proof.WordPayDef.lean ====
/-
  The value the kernel body stores, as ONE function of what its seven staging buffers hold.

  The body loads the feature block (bf16), the weight tile, the label column, the margin column `cos(θ + m)`, the
  scaled target column and the running mean, and stores one tile of the result: at row `r`, column `j` of the tile
  the label's scaled target where the column is the row's label, else the reweighted scaled cosine of row `r` of the
  features with row `j` of the weight tile. `outPay` names that stored tile; nothing else about the body is needed
  by the value side.
-/
import proofs.«406260_j17910013625058_3_alg».proof.Proof.Gen.Kernel.Skeleton

noncomputable section

namespace Cert.Kernel.Body

open Idealize.ShloMosaic Cert.Kernel Cert.Kernel.Gen

variable {F : FTy → Type} [FloatOps F]

/-- The tile the body stores at grid coordinates `i`, from the contents `X0 … X5` of the six input staging buffers
    (features, weight tile, labels, margin column, scaled target column, running mean). -/
def outPay (i : grid0.Coords) (X0 : Vec F S512x512 .bf16) (X1 : Vec F S2560x512 .f32) (X2 : Vec F S512x1 .i32)
    (X3 X4 : Vec F S512x1 .f32) (X5 : Vec F S1x1 .f32) : Vec F S512x2560 .f32 :=
  k0_pay1 (k0_pay2 X1 X0 X3 X5) (k0_pay3 i X2) (k0_pay4 X4)

end Cert.Kernel.Body

end
-- ==== Proof.WordSoundBody.lean ====
/-
  What the kernel body does to its seven staging buffers, at any float instance.

  On whole staging buffers holding `x0 … x5` (features, weight tile, labels, margin column, scaled target column,
  running mean) and anything in the result's buffer, the body terminates without a fault, leaves the six input
  buffers as they were and the result's buffer holding the stored tile `outPay i x0 … x5`: its loads are of whole
  buffers, its one store covers the whole result buffer.
-/
import proofs.«406260_j17910013625058_3_alg».proof.Proof.WordPayDef
import proofs.«406260_j17910013625058_3_alg».proof.Proof.Gen.Kernel.Frame
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the body's one store: the whole result buffer. -/
abbrev r7 : Rect S512x2560 := Rect.unit (s := S512x2560) ![0, 0] S512x2560.size inb_S512x2560_S512x2560_0_0

/-- Every index of the result buffer lies in that rectangle. -/
theorem cover7 (p0 : Vec F S512x2560 .f32) (y : S512x2560.Idx) :
    ∃ pc ∈ ([⟨r7, p0⟩] : List (View.Piece (Elt F) S512x2560 .f32)), y ∈ pc.1.set :=
  ⟨⟨r7, p0⟩, List.mem_singleton_self _,
    View.mem_set_unit_zero (S := S512x2560) (funext fun a => by fin_cases a <;> rfl) inb_S512x2560_S512x2560_0_0 y⟩

set_option maxHeartbeats 4000000 in
/-- The body's triple. -/
theorem sound_kernel (c : Dev nD) (E : Set ℕ) (i : grid0.Coords)
    (arg1 : Memref sig .tc .vmem S512x512 .bf16) (harg1 : arg1.IsWhole) (arg2 : Memref sig .tc .vmem S2560x512 .f32) (harg2 : arg2.IsWhole)
    (arg3 : Memref sig .tc .vmem S512x1 .i32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S1x1 .f32) (harg6 : arg6.IsWhole)
    (arg7 : Memref sig .tc .vmem S512x2560 .f32) (harg7 : arg7.IsWhole)
    (x0 : Vec F S512x512 .bf16) (x1 : Vec F S2560x512 .f32) (x2 : Vec F S512x1 .i32) (x3 x4 : Vec F S512x1 .f32) (x5 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outPay i x0 x1 x2 x3 x4 x5)) -∗ K ⟨⟩))
      ⊢ wp frame (wpE (defs₀ (F := F)) Variants.none c none) E
          (cc0__main_kernel i arg1 harg1 arg2 harg2 arg3 harg3 arg4 harg4 arg5 harg5 arg6 harg6 arg7 harg7) K := by
  simp only [cc0__main_kernel_eq_skeleton]; unfold cc0__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  have hz : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- the one store is through the whole buffer: what the buffer then reads is the stored tile
  rw [View.read_writes_eq_canon _ _ _ (cover7 _)]
  sl_unfold_words
  rw [View.canon_unit_zero hz]
  -- each load is through the whole buffer: it reads the buffer's contents
  simp only [View.readAt_eq_ld, View.ld_unit_zero (S := S2560x512) hz, View.ld_unit_zero (S := S512x512) hz,
    View.ld_unit_zero (S := S512x1) hz, View.ld_unit_zero (S := S1x1) hz]
  rfl

end Cert.Kernel.Body

end
-- ==== Proof.WordFrame.lean ====
/-
  The frame of the word-level program: it runs to the end, faults nowhere, and leaves its argument arrays unchanged.

  Nothing is claimed here about what the result array holds, so the pipeline's proof data FORGET the result window:
  its staging buffer is handed to the body holding anything and taken back holding anything. The six input windows
  are as in the idealized program's run: the body finds each input's block (the weight tile's rows past the array's
  end holding words nothing names) and leaves it in place.
-/
import proofs.«406260_j17910013625058_3_alg».proof.Proof.WordSoundBody

set_option maxRecDepth 16384
set_option pp.deepTerms false
set_option pp.maxSteps 20000

noncomputable section

namespace Cert.Kernel.WordRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight tile at point `t` with a filler `d` on the rows past the array's end. -/
def wfill (c : Dev nD) (t : Fin cfg0.N) (d : Vec F S2560x512 .f32) : Vec F S2560x512 .f32 :=
  win0_1.fill (grid0.coords t) d (iblk m c 1 t)

/-- The windows the proof data forget: the result's. -/
abbrev fgt : Fin cfg0.W → Bool := fun
  | ⟨0, _⟩ => false | ⟨1, _⟩ => false | ⟨2, _⟩ => false | ⟨3, _⟩ => false | ⟨4, _⟩ => false | ⟨5, _⟩ => false | ⟨6, _⟩ => true

/-- The proof data: each input's buffer left at its block; the result's at a tile the forgetting never reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t (fun _ => Scalar.ofBits .f32 0#32)
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wfill m c t (fun _ => Scalar.ofBits .f32 0#32) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The weight window is fetched at every point: its buffer holds the rows inside the array, and `d` past them. -/
theorem before0_1 (c : Dev nD) (t : Fin cfg0.N) (d) : (dats m 0 c).before 1 t d = wfill m c t d := by
  unfold Dat.before; rw [if_pos (fetch0_1 t)]
  unfold Dat.fetched Dat.blockOf wfill iblk; rw [A_eq]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel c Set.univ (grid0.coords t) _ _ _ _ _ _ _ _ _ _ _ _ _ _
    (iblk m c 0 t) (wfill m c t d1) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    have e : win0_1.fill (grid0.coords t) d1 (win0_1.cut (grid0.coords t) (wfill m c t (fun _ => Scalar.ofBits .f32 0#32))) = wfill m c t d1 := by
      unfold wfill; rw [win0_1.cut_fill]
    rw [e]; iexact H1
  isplitl [H2]; · iexact H2
  isplitl [H3]; · iexact H3
  isplitl [H4]; · iexact H4
  isplitl [H5]; · iexact H5
  · iexists _; iexact H6

theorem body_obligation (c : Dev nD) :
    BodyObligationLoose (dats (F := F) m 0 c) (defs₀ (F := F)) Variants.none () Set.univ fgt := fun t => by
  rw [bigSep_W0, bigSep_W0]
  exact sound_body m c t

set_option backward.isDefEq.respectTransparency.types false in
theorem run_main :
    θ_run defs (onTc (τ := τ) (main (F := F))) (s₀ m ρ) (RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame of the word-level program. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (RDat.FramePost.arr_in h c 1 rfl).trans ((A_eq m c 1).trans (V_main_arg2 m c)),
      ((h c).2 main_arg3 (Pipeline.mem_restRefs_of main_arg3 (by decide) (by decide))).trans (V_main_arg3 m c)⟩)
    (run_main m ρ)

end Cert.Kernel.WordRun

end
-- ==== Proof.PayDef.lean ====
/-
  The value the kernel body stores, as ONE function of what its seven staging buffers hold.

  The body loads the feature block (bf16), the weight tile, the label column, the margin column `cos(θ + m)`, the
  scaled target column and the running mean, and stores one tile of the result: at row `r`, column `j` of the tile
  the label's scaled target where the column is the row's label, else the reweighted scaled cosine of row `r` of the
  features with row `j` of the weight tile. `outPay` names that stored tile; nothing else about the body is needed
  by the value side.
-/
import proofs.«406260_j17910013625058_3_alg».proof.Proof.Gen.KernelIdeal.Skeleton

noncomputable section

namespace Cert.KernelIdeal.Body

open Idealize.ShloMosaic Cert.KernelIdeal Cert.KernelIdeal.Gen

variable {F : FTy → Type} [FloatOps F] [Named F]

/-- The tile the body stores at grid coordinates `i`, from the contents `X0 … X5` of the six input staging buffers
    (features, weight tile, labels, margin column, scaled target column, running mean). -/
def outPay (i : grid0.Coords) (X0 : Vec F S512x512 .bf16) (X1 : Vec F S2560x512 .f32) (X2 : Vec F S512x1 .i32)
    (X3 X4 : Vec F S512x1 .f32) (X5 : Vec F S1x1 .f32) : Vec F S512x2560 .f32 :=
  k0_pay1 (k0_pay2 X1 X0 X3 X5) (k0_pay3 i X2) (k0_pay4 X4)

end Cert.KernelIdeal.Body

end
-- ==== Proof.SoundBody.lean ====
/-
  What the kernel body does to its seven staging buffers, at any float instance.

  On whole staging buffers holding `x0 … x5` (features, weight tile, labels, margin column, scaled target column,
  running mean) and anything in the result's buffer, the body terminates without a fault, leaves the six input
  buffers as they were and the result's buffer holding the stored tile `outPay i x0 … x5`: its loads are of whole
  buffers, its one store covers the whole result buffer.
-/
import proofs.«406260_j17910013625058_3_alg».proof.Proof.PayDef
import proofs.«406260_j17910013625058_3_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rectangle of the body's one store: the whole result buffer. -/
abbrev r7 : Rect S512x2560 := Rect.unit (s := S512x2560) ![0, 0] S512x2560.size inb_S512x2560_S512x2560_0_0

/-- Every index of the result buffer lies in that rectangle. -/
theorem cover7 (p0 : Vec F S512x2560 .f32) (y : S512x2560.Idx) :
    ∃ pc ∈ ([⟨r7, p0⟩] : List (View.Piece (Elt F) S512x2560 .f32)), y ∈ pc.1.set :=
  ⟨⟨r7, p0⟩, List.mem_singleton_self _,
    View.mem_set_unit_zero (S := S512x2560) (funext fun a => by fin_cases a <;> rfl) inb_S512x2560_S512x2560_0_0 y⟩

set_option maxHeartbeats 4000000 in
/-- The body's triple. -/
theorem sound_kernel (c : Dev nD) (E : Set ℕ) (i : grid0.Coords)
    (arg1 : Memref sig .tc .vmem S512x512 .bf16) (harg1 : arg1.IsWhole) (arg2 : Memref sig .tc .vmem S2560x512 .f32) (harg2 : arg2.IsWhole)
    (arg3 : Memref sig .tc .vmem S512x1 .i32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S1x1 .f32) (harg6 : arg6.IsWhole)
    (arg7 : Memref sig .tc .vmem S512x2560 .f32) (harg7 : arg7.IsWhole)
    (x0 : Vec F S512x512 .bf16) (x1 : Vec F S2560x512 .f32) (x2 : Vec F S512x1 .i32) (x3 x4 : Vec F S512x1 .f32) (x5 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outPay i x0 x1 x2 x3 x4 x5)) -∗ K ⟨⟩))
      ⊢ wp frame (wpE (defs₀ (F := F)) Variants.none c none) E
          (cc0__main_kernel i arg1 harg1 arg2 harg2 arg3 harg3 arg4 harg4 arg5 harg5 arg6 harg6 arg7 harg7) K := by
  simp only [cc0__main_kernel_eq_skeleton]; unfold cc0__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  have hz : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- the one store is through the whole buffer: what the buffer then reads is the stored tile
  rw [View.read_writes_eq_canon _ _ _ (cover7 _)]
  sl_unfold_words
  rw [View.canon_unit_zero hz]
  -- each load is through the whole buffer: it reads the buffer's contents
  simp only [View.readAt_eq_ld, View.ld_unit_zero (S := S2560x512) hz, View.ld_unit_zero (S := S512x512) hz,
    View.ld_unit_zero (S := S512x1) hz, View.ld_unit_zero (S := S1x1) hz]
  rfl

end Cert.KernelIdeal.Body

end
-- ==== Proof.IdealRun.lean ====
/-
  The kernel's run as a pipeline of 79 grid points, at any float instance.

  At point `t` the six input staging buffers hold: the whole feature array, the label, margin and scaled target
  columns and the running mean (fetched once, never changed by the body), and rows `2560·t …` of the weight array —
  at the last point only 320 of the tile's 2560 rows lie inside the array, and the tile's remaining rows hold words
  nothing names. The body stores the tile `outPay` of these; the write-back copies the tile's columns that lie inside
  the result array (all 2560, or 320 at the last point). So what matters of the stored tile is its part inside the
  array, and that part must not depend on the unnamed rows: column `j` of the tile is computed from row `j` of the
  weight tile alone (`hloc`, a hypothesis here, proved where the tile is read at an index).
  The proof data name the weight tile by filling the unnamed rows with the zero word (`wtile`), and the stored tile
  as `otile`, the body's result on that.
-/
import proofs.«406260_j17910013625058_3_alg».proof.Proof.SoundBody

set_option maxRecDepth 16384
set_option pp.deepTerms false
set_option pp.maxSteps 20000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The weight tile at point `t` with a filler `d` on the rows past the array's end. -/
def wfill (c : Dev nD) (t : Fin cfg0.N) (d : Vec F S2560x512 .f32) : Vec F S2560x512 .f32 :=
  win0_1.fill (grid0.coords t) d (iblk m c 1 t)

/-- The weight tile at point `t`, the rows past the array's end filled with the zero word. -/
def wtile (c : Dev nD) (t : Fin cfg0.N) : Vec F S2560x512 .f32 :=
  wfill m c t (fun _ => Scalar.ofBits .f32 0#32)

/-- The tile the body stores at point `t` when the weight tile's unnamed rows hold `d`. -/
def ofill (c : Dev nD) (t : Fin cfg0.N) (d : Vec F S2560x512 .f32) : Vec F S512x2560 .f32 :=
  Body.outPay (grid0.coords t) (iblk m c 0 t) (wfill m c t d) (iblk m c 2 t) (iblk m c 3 t) (iblk m c 4 t) (iblk m c 5 t)

/-- The stored tile named by the proof data. -/
def otile (c : Dev nD) (t : Fin cfg0.N) : Vec F S512x2560 .f32 :=
  ofill m c t (fun _ => Scalar.ofBits .f32 0#32)

/-- The part of the stored tile inside the result array does not depend on the weight tile's unnamed rows. -/
def Local : Prop :=
  ∀ (c : Dev nD) (t : Fin cfg0.N) (d : Vec F S2560x512 .f32),
    win0_6.cut (grid0.coords t) (ofill m c t d) = win0_6.cut (grid0.coords t) (otile m c t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wtile m c t
    | ⟨2, _⟩ => iblk m c 2 t
    | ⟨3, _⟩ => iblk m c 3 t
    | ⟨4, _⟩ => iblk m c 4 t
    | ⟨5, _⟩ => iblk m c 5 t
    | ⟨6, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wtile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = otile m c t := by dsimp only [dats]

/-! ## What the body finds -/

theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The weight window is fetched at every point: its buffer holds the rows inside the array, and `d` past them. -/
theorem before0_1 (c : Dev nD) (t : Fin cfg0.N) (d) : (dats m 0 c).before 1 t d = wfill m c t d := by
  unfold Dat.before; rw [if_pos (fetch0_1 t)]
  unfold Dat.fetched Dat.blockOf wfill iblk; rw [A_eq]

/-- The result window is written back at every point: its buffer holds nothing the proof names. -/
theorem before0_6 (c : Dev nD) (t : Fin cfg0.N) (d) : (dats m 0 c).before 6 t d = d :=
  (dats m 0 c).before_out_reset 6 rfl t
    (by
      by_cases h : t.val = 0
      · exact Or.inl h
      · exact Or.inr ⟨h, flush0_6 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t)))))

theorem sound_body (hloc : Local m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel c Set.univ (grid0.coords t) _ _ _ _ _ _ _ _ _ _ _ _ _ _
    (iblk m c 0 t) (wfill m c t d1) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · -- the weight buffer is as it was: the rows inside the array, `d1` past them
    iexists d1
    have e : win0_1.fill (grid0.coords t) d1 (win0_1.cut (grid0.coords t) (wtile m c t)) = wfill m c t d1 := by
      unfold wtile wfill; rw [win0_1.cut_fill]
    rw [e]; iexact H1
  isplitl [H2]; · iexact H2
  isplitl [H3]; · iexact H3
  isplitl [H4]; · iexact H4
  isplitl [H5]; · iexact H5
  · -- the result buffer holds the tile computed with `d1`; inside the array that is the named tile's part
    iexists (ofill m c t d1)
    have e : win0_6.fill (grid0.coords t) (ofill m c t d1) (win0_6.cut (grid0.coords t) (otile m c t)) = ofill m c t d1 := by
      rw [← hloc c t d1]; exact win0_6.fill_cut _ _
    rw [e]; iexact H6

theorem body_obligation (hloc : Local m) (c : Dev nD) :
    BodyObligationLoose (dats (F := F) m 0 c) (defs₀ (F := F)) Variants.none () Set.univ := fun t => by
  rw [bigSep_W0, bigSep_W0]
  exact sound_body m hloc c t

/-! ## The run, the frame, the result array -/

set_option backward.isDefEq.respectTransparency.types false in
theorem run_main (hloc : Local m) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

/-- The frame: the program runs to the end, faults nowhere, leaves its four argument arrays unchanged. -/
theorem frame (hloc : Local m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hloc)

/-- The result array after the run: what the 79 write-backs leave. -/
def final (c : Dev nD) : Buf (Elt F) ((c.tc : Thread nD τ).loc main_v46) := (dats m 0 c).arrAt 6 cfg0.N

/-- The run with the result array named. -/
theorem run_value (hloc : Local m) : θ_run defs (onTc (τ := τ) (main (F := F))) ⟨m, fun _ => 0, ρ⟩ (fun r => ∀ c : Dev nD,
      r.2.mem ((c.tc : Thread nD τ).loc main_v46) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ hloc)

/-- What point `t` writes back: the stored tile's part inside the array. -/
theorem flushed6 (c : Dev nD) (t : Fin cfg0.N) :
    (dats m 0 c).flushed 6 t = win0_6.cut (grid0.coords t) (otile m c t) := by
  show (cfg0.win 6).cut (cfg0.grid.coords t) ((dats m 0 c).after 6 t) = _
  rw [after0_6]

end Cert.KernelIdeal.Run

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.IdealPayload.lean ====
/-
  The tile the kernel body stores, read at one entry.

  At row r and column j of the tile the body stores: the row's scaled target where the column is the row's label
  (the label taken relative to the tile's first column), and otherwise the scaled cosine of row r of the features
  with row j of the weight tile, reweighted where it exceeds the row's margin. The cosine is the inner product of
  the two rows times the reciprocal square root of the weight row's squared norm (bounded below by a small constant),
  clamped to [-1, 1]. Every entry depends on the weight tile through its row j alone.
-/
import proofs.«406260_j17910013625058_3_alg».proof.Proof.PayDef
import proofs.«406260_j17910013625058_3_alg».proof.Proof.LibOneAxisContraction
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## The scalar function of one entry -/

/-- The clamped cosine of a feature row f with a weight row w: their inner product times the reciprocal square
    root of w's squared norm (at least the small constant), clamped to [-1, 1]. -/
def cosK (f w : Fin 512 → EReal) : EReal :=
  min (Ideal.ofBits .f32 0x3F800000#32) (max (Ideal.ofBits .f32 0xBF800000#32)
    ((∑ k, f k * w k) * Ideal.rsqrt (max (∑ k, w k * w k) (Named.named (F := Ideal) κ "eps_sq" (φ := .f32) 0x179ABE15#32))))

/-- One entry of the stored tile, as a function of the tile's number ci, the feature row f, the weight row w, the
    row's label, margin, scaled target and the running mean, and the column j within the tile. -/
def cellK (ci : Nat) (f w : Fin 512 → EReal) (lbl : BitVec 32) (ctm ftls tnew : EReal) (j : Fin 2560) : EReal :=
  Scalar.select (IntOp.cmpi .eq (BitVec.ofNat 32 j.val) (lbl - Scalar.muli (BitVec.ofNat 32 ci) 2560#32)) ftls
    (Scalar.select (FloatOps.cmpf (F := Ideal) (φ := .f32) .ogt (cosK f w) ctm)
      ((cosK f w * Ideal.ofBits .f32 0x42800000#32) * (tnew + cosK f w))
      (cosK f w * Ideal.ofBits .f32 0x42800000#32))

/-! ## Layout operations at an entry -/

section Layout
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the second axis of a [2560, 512] array, at j: the sum of row j. -/
theorem rowSum_apply (v : FVec Ideal S2560x512 .f32) (j : Fin 2560) :
    multiReduction (F := Ideal) .add [1] S2560 v 0x00000000#32 reduces_S2560x512_S2560 (.inl rfl) rfl (ix1 j)
      = ∑ k : Fin 512, v (ix2 j k) := by
  refine (Ideal.multiReduction_add_single v _ reduces_S2560x512_S2560 _ _ (ix1 j)).trans ?_
  refine Finset.sum_congr rfl fun k _ => congrArg v ?_
  exact funext fun c => Fin.ext (match c with | ⟨0, _⟩ => rfl | ⟨1, _⟩ => rfl)

/-! ## The matrix product at an entry -/

theorem lhs_axis0 (i : S512x2560.Idx) (q : dot_S512x512_S2560x512_S512x2560_1_1_0_0_n_n.contr.Idx) :
    (dot_S512x512_S2560x512_S512x2560_1_1_0_0_n_n.lhsIdx i q 0).val = (i 0).val := by
  unfold DotDims.lhsIdx
  rw [dif_neg (show ¬(0 : Fin S512x512.rank) ∈ dot_S512x512_S2560x512_S512x2560_1_1_0_0_n_n.lhsBatch by decide), dif_pos (show (0 : Fin S512x512.rank) ∈ dot_S512x512_S2560x512_S512x2560_1_1_0_0_n_n.lhsNonContracting by decide)]
  rfl
theorem lhs_axis1 (i : S512x2560.Idx) (q : dot_S512x512_S2560x512_S512x2560_1_1_0_0_n_n.contr.Idx) :
    (dot_S512x512_S2560x512_S512x2560_1_1_0_0_n_n.lhsIdx i q 1).val = (q ⟨0, by decide⟩).val :=
  dot_S512x512_S2560x512_S512x2560_1_1_0_0_n_n.lhsIdx_val_of_single rfl i q
theorem rhs_axis0 (i : S512x2560.Idx) (q : dot_S512x512_S2560x512_S512x2560_1_1_0_0_n_n.contr.Idx) :
    (dot_S512x512_S2560x512_S512x2560_1_1_0_0_n_n.rhsIdx i q 0).val = (i 1).val := by
  unfold DotDims.rhsIdx
  rw [dif_neg (show ¬(0 : Fin S2560x512.rank) ∈ dot_S512x512_S2560x512_S512x2560_1_1_0_0_n_n.rhsBatch by decide), dif_pos (show (0 : Fin S2560x512.rank) ∈ dot_S512x512_S2560x512_S512x2560_1_1_0_0_n_n.rhsNonContracting by decide)]
  rfl
theorem rhs_axis1 (i : S512x2560.Idx) (q : dot_S512x512_S2560x512_S512x2560_1_1_0_0_n_n.contr.Idx) :
    (dot_S512x512_S2560x512_S512x2560_1_1_0_0_n_n.rhsIdx i q 1).val = (q ⟨0, by decide⟩).val :=
  dot_S512x512_S2560x512_S512x2560_1_1_0_0_n_n.rhsIdx_val_of_single rfl i q

/-- The product of a [512, 512] array with the transpose of a [2560, 512] array, into the zero accumulator, at
    (r, j): the inner product of row r of the first with row j of the second. -/
theorem matmul_rows_apply (A : FVec Ideal S512x512 .bf16) (B : FVec Ideal S2560x512 .bf16) (r : Fin 512) (j : Fin 2560) :
    matmul dot_S512x512_S2560x512_S512x2560_1_1_0_0_n_n none A B (constant (F := Ideal) S512x2560 .f32 0x00000000#32) (ix2 r j)
      = ∑ k : Fin 512, A (ix2 r k) * B (ix2 j k) := by
  refine Cert.Dots.matmul_zero_apply_of dot_S512x512_S2560x512_S512x2560_1_1_0_0_n_n 512 rfl rfl none A B (ix2 r j)
    (fun k => ix2 r k) (fun k => ix2 j k) (fun k => ?_) (fun k => ?_)
  · have hk := contrEquiv1_symm_val dot_S512x512_S2560x512_S512x2560_1_1_0_0_n_n 512 rfl rfl k
    exact funext fun a => Fin.ext (by
      match a with
      | ⟨0, _⟩ => exact lhs_axis0 _ _
      | ⟨1, _⟩ => exact (lhs_axis1 _ _).trans hk)
  · have hk := contrEquiv1_symm_val dot_S512x512_S2560x512_S512x2560_1_1_0_0_n_n 512 rfl rfl k
    exact funext fun a => Fin.ext (by
      match a with
      | ⟨0, _⟩ => exact rhs_axis0 _ _
      | ⟨1, _⟩ => exact (rhs_axis1 _ _).trans hk)

/-! ## The body's values at an entry -/

/-- The reciprocal norm of the weight rows, laid along the columns and repeated over the rows, at (r, j): the
    reciprocal square root of the squared norm of row j of the weight tile, bounded below by the small constant. -/
theorem invNorm_apply (X1 : Vec Ideal S2560x512 .f32) (r : Fin 512) (j : Fin 2560) :
    broadcastTo S512x2560
      (transpose S1x2560 [1, 0]
        (rsqrt (maximumf
          (shapeCast S2560x1 (multiReduction (F := Ideal) .add [1] S2560 (mulf X1 X1) 0x00000000#32 reduces_S2560x512_S2560 (.inl rfl) rfl) shapeCasts_S2560_S2560x1)
          (broadcast S2560x1 (Named.named (F := Ideal) κ "eps_sq" (φ := .f32) 0x179ABE15#32))))
        transposes_S2560x1_p1_0_S1x2560) broadcasts_S1x2560_S512x2560 (ix2 r j)
    = Ideal.rsqrt (max (∑ k : Fin 512, X1 (ix2 j k) * X1 (ix2 j k)) (Named.named (F := Ideal) κ "eps_sq" (φ := .f32) 0x179ABE15#32)) := by
  refine (broadcastTo_1b_ab_apply _ broadcasts_S1x2560_S512x2560 r j).trans ?_
  refine (transpose_ix2_apply _ transposes_S2560x1_p1_0_S1x2560 (0 : Fin 1) j).trans ?_
  show Ideal.rsqrt (max (shapeCast S2560x1 _ shapeCasts_S2560_S2560x1 (ix2 j (0 : Fin 1))) _) = _
  rw [shapeCast_a_a1_apply, rowSum_apply]
  rfl

theorem k0_pay2_apply (X1 : Vec Ideal S2560x512 .f32) (X0 : Vec Ideal S512x512 .bf16) (X3 : Vec Ideal S512x1 .f32)
    (X5 : Vec Ideal S1x1 .f32) (r : Fin 512) (j : Fin 2560) :
    k0_pay2 (F := Ideal) X1 X0 X3 X5 (ix2 r j)
      = Scalar.select (FloatOps.cmpf (F := Ideal) (φ := .f32) .ogt (cosK (fun k => X0 (ix2 r k)) (fun k => X1 (ix2 j k))) (X3 (ix2 r (0 : Fin 1))))
          ((cosK (fun k => X0 (ix2 r k)) (fun k => X1 (ix2 j k)) * Ideal.ofBits .f32 0x42800000#32)
            * (X5 (ix2 (0 : Fin 1) (0 : Fin 1)) + cosK (fun k => X0 (ix2 r k)) (fun k => X1 (ix2 j k))))
          (cosK (fun k => X0 (ix2 r k)) (fun k => X1 (ix2 j k)) * Ideal.ofBits .f32 0x42800000#32) := by
  have hN := invNorm_apply X1 r j
  have hM := matmul_rows_apply X0 (truncf .bf16 X1 bitsLt_bf16_f32) r j
  have hC := broadcastTo_a1_ab_apply X3 broadcasts_S512x1_S512x2560 r j
  have hX : extractAt ![0, 0] X5 inpos_S1x1_p0_0 = X5 (ix2 (0 : Fin 1) (0 : Fin 1)) :=
    congrArg X5 (funext fun a => Fin.ext (match a with | ⟨0, _⟩ => rfl | ⟨1, _⟩ => rfl))
  unfold k0_pay2
  simp only [select_apply, cmpf_apply, mulf_apply, addf_apply, minimumf_apply, maximumf_apply, broadcast_apply,
    shapeCast_self]
  rw [hM, hN, hC, hX]
  rfl

/-- The label test at (r, j): column j of the tile is row r's label taken relative to the tile's first column. -/
theorem k0_pay3_apply (i : grid0.Coords) (X2 : Vec Ideal S512x1 .i32) (r : Fin 512) (j : Fin 2560) :
    k0_pay3 (F := Ideal) i X2 (ix2 r j)
      = IntOp.cmpi .eq (BitVec.ofNat 32 j.val) (X2 (ix2 r (0 : Fin 1)) - Scalar.muli (BitVec.ofNat 32 (i 0).val) 2560#32) := by
  have hI := iota_single_apply .tc S512x2560 32 1 iota_S512x2560_d1_w32 (ix2 r j)
  have hC := broadcastTo_a1_ab_apply (subi X2 (broadcast S512x1 (Scalar.muli (BitVec.ofNat 32 (i 0).val) 2560#32)))
    broadcasts_S512x1_S512x2560 r j
  unfold k0_pay3
  simp only [shapeCast_self]
  show IntOp.cmpi .eq (iota .tc S512x2560 32 [1] iota_S512x2560_d1_w32 (ix2 r j))
    (broadcastTo S512x2560 (subi X2 (broadcast S512x1 (Scalar.muli (BitVec.ofNat 32 (i 0).val) 2560#32)))
      broadcasts_S512x1_S512x2560 (ix2 r j)) = _
  rw [hI, hC]
  rfl

/-- The stored tile at (r, j). -/
theorem outPay_apply (i : grid0.Coords) (X0 : Vec Ideal S512x512 .bf16) (X1 : Vec Ideal S2560x512 .f32)
    (X2 : Vec Ideal S512x1 .i32) (X3 X4 : Vec Ideal S512x1 .f32) (X5 : Vec Ideal S1x1 .f32) (r : Fin 512) (j : Fin 2560) :
    Body.outPay (F := Ideal) i X0 X1 X2 X3 X4 X5 (ix2 r j)
      = cellK (i 0).val (fun k => X0 (ix2 r k)) (fun k => X1 (ix2 j k)) (X2 (ix2 r (0 : Fin 1))) (X3 (ix2 r (0 : Fin 1)))
          (X4 (ix2 r (0 : Fin 1))) (X5 (ix2 (0 : Fin 1) (0 : Fin 1))) j := by
  have h2 := k0_pay2_apply X1 X0 X3 X5 r j
  have h3 := k0_pay3_apply i X2 r j
  have hC := broadcastTo_a1_ab_apply X4 broadcasts_S512x1_S512x2560 r j
  unfold Body.outPay k0_pay1 k0_pay4
  simp only [select_apply, shapeCast_self]
  rw [h2, h3, hC]
  rfl

/-- An entry of the stored tile depends on the weight tile through its row j alone. -/
theorem outPay_congr_rows (i : grid0.Coords) (X0 : Vec Ideal S512x512 .bf16) (X1 X1' : Vec Ideal S2560x512 .f32)
    (X2 : Vec Ideal S512x1 .i32) (X3 X4 : Vec Ideal S512x1 .f32) (X5 : Vec Ideal S1x1 .f32) (r : Fin 512) (j : Fin 2560)
    (h : ∀ k : Fin 512, X1 (ix2 j k) = X1' (ix2 j k)) :
    Body.outPay (F := Ideal) i X0 X1 X2 X3 X4 X5 (ix2 r j) = Body.outPay (F := Ideal) i X0 X1' X2 X3 X4 X5 (ix2 r j) := by
  rw [outPay_apply, outPay_apply, show (fun k => X1 (ix2 j k)) = (fun k => X1' (ix2 j k)) from funext h]

end Cert.KernelIdeal.Pay

end
-- ==== Proof.IdealFinal.lean ====
/-
  The result array after the run, entry by entry.

  The run writes back, at each of the 79 points, the part of the stored tile that lies inside the result array. An entry
  of that part at column j of the tile is computed from row j of the weight tile, which lies inside the weight array
  (the two windows are cut at the same place), so it does not see what the tile holds past the array's end. Entry
  (r, col) of the result is then the body's scalar function of row r of the features, row col of the weight array, row
  r of the label, margin and scaled target columns and the running mean, at tile col / 2560 and column col % 2560.
-/
import proofs.«406260_j17910013625058_3_alg».proof.Proof.IdealRun
import proofs.«406260_j17910013625058_3_alg».proof.Proof.IdealPayload
import Idealize.ShloMosaic.Lib.Pipeline.Value

set_option maxRecDepth 16384

noncomputable section

namespace Cert.KernelIdeal.Final

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

variable (m : (ℓ : Loc nD τ sig) → Buf (Elt Ideal) ℓ)

/-! ## The stored tile's part inside the array does not see the weight tile's rows past the array's end -/

/-- A block entry the transfer moves reads the fetched part, whatever filled the block before. -/
theorem fill_of_moved {G : Pipeline.Grid} {α : Type} (w : Window sig G) (i : G.Coords) (d d' : w.block.Idx → α)
    (g : (w.xblock i).Idx → α) {j : w.block.Idx} (h : w.moved i j = true) : w.fill i d g j = w.fill i d' g j := by
  unfold Window.fill
  rw [dif_pos h, dif_pos h]

/-- The result window moves as many columns of its tile as the weight window moves rows of its own. -/
theorem xsize6_1 (i : grid0.Coords) : win0_6.xsize i (1 : Fin 2) = win0_1.xsize i (0 : Fin 2) := rfl
/-- The weight window moves whole rows. -/
theorem xsize1_1 (i : grid0.Coords) : win0_1.xsize i (1 : Fin 2) = 512 := rfl

theorem local_ideal : Run.Local (F := Ideal) m := by
  intro c t d
  funext y
  have h0 : (y (0 : Fin 2)).val < 512 :=
    Nat.lt_of_lt_of_le (y (0 : Fin 2)).isLt (win0_6.xsize_le (grid0.coords t) (0 : Fin 2))
  have h1 : (y (1 : Fin 2)).val < 2560 :=
    Nat.lt_of_lt_of_le (y (1 : Fin 2)).isLt (win0_6.xsize_le (grid0.coords t) (1 : Fin 2))
  have hx : (win0_6.xinj (grid0.coords t) y : S512x2560.Idx)
      = ix2 (⟨(y (0 : Fin 2)).val, h0⟩ : Fin 512) (⟨(y (1 : Fin 2)).val, h1⟩ : Fin 2560) :=
    funext fun a => Fin.ext (match a with | ⟨0, _⟩ => rfl | ⟨1, _⟩ => rfl)
  show Run.ofill m c t d (win0_6.xinj (grid0.coords t) y) = Run.otile m c t (win0_6.xinj (grid0.coords t) y)
  refine (congrArg (Run.ofill m c t d) hx).trans (Eq.trans ?_ (congrArg (Run.otile m c t) hx).symm)
  unfold Run.otile Run.ofill
  refine Pay.outPay_congr_rows _ _ _ _ _ _ _ _ _ _ (fun k => ?_)
  unfold Run.wfill
  refine fill_of_moved win0_1 (grid0.coords t) _ _ _ ?_
  refine (win0_1.moved_iff _ _).mpr fun a => ?_
  match a with
  | ⟨0, _⟩ => exact (y (1 : Fin 2)).isLt
  | ⟨1, _⟩ => exact k.isLt

/-! ## The result array, entry by entry -/

/-- The index maps, decided once over the grid: every window but the weight's and the result's sits at block (0, 0);
    the weight window at point t is at row block t, the result window at column block t, where it moves 2560 columns
    or, at the array's end, what is left of the 200000. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val
    ∧ (grid0.coords t (0 : Fin 1)).val = t.val
    ∧ win0_6.xsize (grid0.coords t) (0 : Fin 2) = 512
    ∧ win0_6.xsize (grid0.coords t) (1 : Fin 2) = min 2560 (200000 - 2560 * t.val) :=
  (by decide +kernel : ∀ t : Fin grid0.N, _)

/-! ### Each input block read at an index of its array -/

/-- The feature window's block is the whole feature array. -/
theorem iblk0_apply (c : Dev nD) (t : Fin cfg0.N) (z : S512x512.Idx) : iblk m c 0 t z = V m c main_v45 z := by
  obtain ⟨e00, e01, -⟩ := idx_facts t
  show V m c main_v45 (((cfg0.win 0).blk t).view.emb z) = V m c main_v45 z
  refine congrArg _ (funext fun a => Fin.ext ?_)
  match a with
  | ⟨0, _⟩ => show win0_0.index t (0 : Fin 2) * 512 + 1 * (z (0 : Fin 2)).val = (z (0 : Fin 2)).val; omega
  | ⟨1, _⟩ => show win0_0.index t (1 : Fin 2) * 512 + 1 * (z (1 : Fin 2)).val = (z (1 : Fin 2)).val; omega

/-- The label window's block is the whole label column. -/
theorem iblk2_apply (c : Dev nD) (t : Fin cfg0.N) (z : S512x1.Idx) : iblk m c 2 t z = V m c main_v44 z := by
  obtain ⟨-, -, -, -, e20, e21, -⟩ := idx_facts t
  show V m c main_v44 (((cfg0.win 2).blk t).view.emb z) = V m c main_v44 z
  refine congrArg _ (funext fun a => Fin.ext ?_)
  match a with
  | ⟨0, _⟩ => show win0_2.index t (0 : Fin 2) * 512 + 1 * (z (0 : Fin 2)).val = (z (0 : Fin 2)).val; omega
  | ⟨1, _⟩ => show win0_2.index t (1 : Fin 2) * 1 + 1 * (z (1 : Fin 2)).val = (z (1 : Fin 2)).val; omega

/-- The margin window's block is the whole margin column. -/
theorem iblk3_apply (c : Dev nD) (t : Fin cfg0.N) (z : S512x1.Idx) : iblk m c 3 t z = V m c main_v29 z := by
  obtain ⟨-, -, -, -, -, -, e30, e31, -⟩ := idx_facts t
  show V m c main_v29 (((cfg0.win 3).blk t).view.emb z) = V m c main_v29 z
  refine congrArg _ (funext fun a => Fin.ext ?_)
  match a with
  | ⟨0, _⟩ => show win0_3.index t (0 : Fin 2) * 512 + 1 * (z (0 : Fin 2)).val = (z (0 : Fin 2)).val; omega
  | ⟨1, _⟩ => show win0_3.index t (1 : Fin 2) * 1 + 1 * (z (1 : Fin 2)).val = (z (1 : Fin 2)).val; omega

/-- The scaled target window's block is the whole scaled target column. -/
theorem iblk4_apply (c : Dev nD) (t : Fin cfg0.N) (z : S512x1.Idx) : iblk m c 4 t z = V m c main_v36 z := by
  obtain ⟨-, -, -, -, -, -, -, -, e40, e41, -⟩ := idx_facts t
  show V m c main_v36 (((cfg0.win 4).blk t).view.emb z) = V m c main_v36 z
  refine congrArg _ (funext fun a => Fin.ext ?_)
  match a with
  | ⟨0, _⟩ => show win0_4.index t (0 : Fin 2) * 512 + 1 * (z (0 : Fin 2)).val = (z (0 : Fin 2)).val; omega
  | ⟨1, _⟩ => show win0_4.index t (1 : Fin 2) * 1 + 1 * (z (1 : Fin 2)).val = (z (1 : Fin 2)).val; omega

/-- The running mean's window's block is the whole one-entry array. -/
theorem iblk5_apply (c : Dev nD) (t : Fin cfg0.N) (z : S1x1.Idx) : iblk m c 5 t z = V m c main_v43 z := by
  obtain ⟨-, -, -, -, -, -, -, -, -, -, e50, e51, -⟩ := idx_facts t
  show V m c main_v43 (((cfg0.win 5).blk t).view.emb z) = V m c main_v43 z
  refine congrArg _ (funext fun a => Fin.ext ?_)
  match a with
  | ⟨0, _⟩ => show win0_5.index t (0 : Fin 2) * 1 + 1 * (z (0 : Fin 2)).val = (z (0 : Fin 2)).val; omega
  | ⟨1, _⟩ => show win0_5.index t (1 : Fin 2) * 1 + 1 * (z (1 : Fin 2)).val = (z (1 : Fin 2)).val; omega

/-- Row j of the weight tile at point t, when it lies inside the array, is row 2560 t + j of the weight array,
    whatever fills the tile past the array's end. -/
theorem wfill_apply (c : Dev nD) (t : Fin cfg0.N) (d : Vec Ideal S2560x512 .f32) (j : Fin 2560) (k : Fin 512)
    (hj : j.val < win0_1.xsize (grid0.coords t) (0 : Fin 2)) (hcol : t.val * 2560 + j.val < 200000) :
    Run.wfill m c t d (ix2 j k) = V m c main_arg2 (ix2 (⟨t.val * 2560 + j.val, hcol⟩ : Fin 200000) k) := by
  obtain ⟨-, -, e10, e11, -⟩ := idx_facts t
  have hmv : win0_1.moved (grid0.coords t) (ix2 j k) = true :=
    (win0_1.moved_iff _ _).mpr fun a => match a with
      | ⟨0, _⟩ => hj
      | ⟨1, _⟩ => k.isLt
  unfold Run.wfill Window.fill
  rw [dif_pos hmv]
  show V m c main_arg2 (((cfg0.win 1).blk t).view.emb _) = _
  refine congrArg _ (funext fun a => Fin.ext ?_)
  match a with
  | ⟨0, _⟩ => show win0_1.index t (0 : Fin 2) * 2560 + 1 * j.val = t.val * 2560 + j.val; omega
  | ⟨1, _⟩ => show win0_1.index t (1 : Fin 2) * 512 + 1 * k.val = k.val; omega

/-! ### What a point writes back, and the whole array -/

/-- Entry (r, col) of the result, from the arrays the region finds. -/
def cell (c : Dev nD) (r : Fin 512) (col : Fin 200000) : EReal :=
  Pay.cellK (col.val / 2560) (fun k => V m c main_v45 (ix2 r k)) (fun k => V m c main_arg2 (ix2 col k))
    (V m c main_v44 (ix2 r (0 : Fin 1))) (V m c main_v29 (ix2 r (0 : Fin 1))) (V m c main_v36 (ix2 r (0 : Fin 1)))
    (V m c main_v43 (ix2 (0 : Fin 1) (0 : Fin 1))) ⟨col.val % 2560, Nat.mod_lt _ (by norm_num)⟩

/-- The result array as one function of its index. -/
def G (c : Dev nD) : Buf (Elt Ideal) ((c.tc : Thread nD τ).loc main_v46) :=
  fun i => cell m c ⟨(i (0 : Fin 2)).val, (i (0 : Fin 2)).isLt⟩ ⟨(i (1 : Fin 2)).val, (i (1 : Fin 2)).isLt⟩

/-- What point t writes back is block t of that function. -/
theorem flushed_eq (c : Dev nD) (t : Fin cfg0.N) :
    (Run.dats m 0 c).flushed 6 t = ((cfg0.win 6).blk t).view.read (Elt Ideal) (G m c) := by
  rw [Run.flushed6]
  funext y
  show Run.otile m c t (win0_6.xinj (grid0.coords t) y) = G m c (((cfg0.win 6).blk t).view.emb y)
  obtain ⟨-, -, -, -, -, -, -, -, -, -, -, -, e60, e61, ect, xs0, xs1⟩ := idx_facts t
  have ht : t.val < 79 := t.isLt
  have y0 : (y (0 : Fin 2)).val < win0_6.xsize (grid0.coords t) (0 : Fin 2) := (y (0 : Fin 2)).isLt
  have y1 : (y (1 : Fin 2)).val < win0_6.xsize (grid0.coords t) (1 : Fin 2) := (y (1 : Fin 2)).isLt
  rw [xs0] at y0
  have y1' := y1
  rw [xs1] at y1'
  have h1 : (y (1 : Fin 2)).val < 2560 := by omega
  have hcol : t.val * 2560 + (y (1 : Fin 2)).val < 200000 := by omega
  have hx : (win0_6.xinj (grid0.coords t) y : S512x2560.Idx)
      = ix2 (⟨(y (0 : Fin 2)).val, y0⟩ : Fin 512) (⟨(y (1 : Fin 2)).val, h1⟩ : Fin 2560) :=
    funext fun a => Fin.ext (match a with | ⟨0, _⟩ => rfl | ⟨1, _⟩ => rfl)
  have hi : ((cfg0.win 6).blk t).view.emb y
      = ix2 (⟨(y (0 : Fin 2)).val, y0⟩ : Fin 512) (⟨t.val * 2560 + (y (1 : Fin 2)).val, hcol⟩ : Fin 200000) :=
    funext fun a => Fin.ext (by
      match a with
      | ⟨0, _⟩ => show win0_6.index t (0 : Fin 2) * 512 + 1 * (y (0 : Fin 2)).val = (y (0 : Fin 2)).val; omega
      | ⟨1, _⟩ => show win0_6.index t (1 : Fin 2) * 2560 + 1 * (y (1 : Fin 2)).val = t.val * 2560 + (y (1 : Fin 2)).val; omega)
  refine (congrArg (Run.otile m c t) hx).trans (Eq.trans ?_ (congrArg (G m c) hi).symm)
  unfold Run.otile Run.ofill
  refine (Pay.outPay_apply _ _ _ _ _ _ _ _ _).trans ?_
  show _ = cell m c (⟨(y (0 : Fin 2)).val, y0⟩ : Fin 512) (⟨t.val * 2560 + (y (1 : Fin 2)).val, hcol⟩ : Fin 200000)
  unfold cell
  have a1 : (grid0.coords t (0 : Fin 1)).val = (t.val * 2560 + (y (1 : Fin 2)).val) / 2560 := by omega
  have a8 : (⟨(y (1 : Fin 2)).val, h1⟩ : Fin 2560)
      = ⟨(t.val * 2560 + (y (1 : Fin 2)).val) % 2560, Nat.mod_lt _ (by norm_num)⟩ := Fin.ext (by show (y (1 : Fin 2)).val = (t.val * 2560 + (y (1 : Fin 2)).val) % 2560; omega)
  simp only [iblk0_apply, iblk2_apply, iblk3_apply, iblk4_apply, iblk5_apply,
    wfill_apply m c t _ ⟨(y (1 : Fin 2)).val, h1⟩ _ y1 hcol]
  rw [a1, a8]

/-- An index of the result array is in point t's block iff each coordinate is in the block's range on its axis. -/
theorem mem_blk (t : Fin cfg0.N) (i : S512x200000.Idx) :
    i ∈ ((cfg0.win 6).blk t).view.set ↔ ∀ a : Fin 2, win0_6.index t a * S512x2560.size a ≤ (i a).val
      ∧ (i a).val < win0_6.index t a * S512x2560.size a + win0_6.xsize (grid0.coords t) a := by
  show i ∈ ((View.whole main_v46).slice (win0_6.rect t)).set ↔ _
  rw [View.set_slice_whole, Rect.mem_set_unit]
  exact Iff.rfl

/-- Every index of the result array lies in the block some point writes back: column col in that of point col / 2560. -/
theorem cover (i : S512x200000.Idx) :
    ∃ t : Fin cfg0.N, (cfg0.win 6).flush t = true ∧ i ∈ ((cfg0.win 6).blk t).view.set := by
  have hi0 : (i (0 : Fin 2)).val < 512 := (i (0 : Fin 2)).isLt
  have hi1 : (i (1 : Fin 2)).val < 200000 := (i (1 : Fin 2)).isLt
  have hN : grid0.N = 79 := Gen.N_0
  have hq : (i (1 : Fin 2)).val / 2560 < cfg0.N := by show (i (1 : Fin 2)).val / 2560 < grid0.N; omega
  refine ⟨⟨(i (1 : Fin 2)).val / 2560, hq⟩, flush0_6 _, ?_⟩
  obtain ⟨-, -, -, -, -, -, -, -, -, -, -, -, e60, e61, -, xs0, xs1⟩ := idx_facts ⟨(i (1 : Fin 2)).val / 2560, hq⟩
  rw [mem_blk]
  intro a
  match a with
  | ⟨0, _⟩ =>
    show win0_6.index ⟨(i (1 : Fin 2)).val / 2560, hq⟩ (0 : Fin 2) * 512 ≤ (i (0 : Fin 2)).val
      ∧ (i (0 : Fin 2)).val < win0_6.index ⟨(i (1 : Fin 2)).val / 2560, hq⟩ (0 : Fin 2) * 512
          + win0_6.xsize (grid0.coords ⟨(i (1 : Fin 2)).val / 2560, hq⟩) (0 : Fin 2)
    rw [e60, xs0]; omega
  | ⟨1, _⟩ =>
    show win0_6.index ⟨(i (1 : Fin 2)).val / 2560, hq⟩ (1 : Fin 2) * 2560 ≤ (i (1 : Fin 2)).val
      ∧ (i (1 : Fin 2)).val < win0_6.index ⟨(i (1 : Fin 2)).val / 2560, hq⟩ (1 : Fin 2) * 2560
          + win0_6.xsize (grid0.coords ⟨(i (1 : Fin 2)).val / 2560, hq⟩) (1 : Fin 2)
    rw [e61, xs1]
    show (i (1 : Fin 2)).val / 2560 * 2560 ≤ (i (1 : Fin 2)).val
      ∧ (i (1 : Fin 2)).val < (i (1 : Fin 2)).val / 2560 * 2560 + min 2560 (200000 - 2560 * ((i (1 : Fin 2)).val / 2560))
    omega

/-- The result array after the run is that function. -/
theorem final_eq (c : Dev nD) : Run.final (F := Ideal) m c = G m c :=
  (Run.dats m 0 c).arrAt_eq_of_cover 6 (G m c) (fun t _ => flushed_eq m c t) cover

/-- Entry (r, col) of the result array after the run. -/
theorem final_apply (c : Dev nD) (r : Fin 512) (col : Fin 200000) :
    Run.final (F := Ideal) m c (ix2 r col)
      = Pay.cellK (col.val / 2560) (fun k => V m c main_v45 (ix2 r k)) (fun k => V m c main_arg2 (ix2 col k))
          (V m c main_v44 (ix2 r (0 : Fin 1))) (V m c main_v29 (ix2 r (0 : Fin 1))) (V m c main_v36 (ix2 r (0 : Fin 1)))
          (V m c main_v43 (ix2 (0 : Fin 1) (0 : Fin 1))) ⟨col.val % 2560, Nat.mod_lt _ (by norm_num)⟩ := by
  rw [final_eq]
  rfl

end Cert.KernelIdeal.Final

end
-- ==== Proof.HostGlue.lean ====
/-
  The host side of the margin-softmax program: what the arrays hold when the one tiled region is entered.

  Before its tiled region the program normalises the feature rows, gathers and normalises the label rows of the weight
  matrix, takes the row-wise inner products (the TARGET LOGIT column, clipped to [-1, 1]) and from that column computes
  three things the region only reads: the margin column cos(θ + m) = t·cos m − √(1 − t²)·sin m, the final target logit
  (cos(θ + m) where t exceeds the threshold cos(π − m), else t − m·sin(π − m)) scaled by s = 64, and the running mean
  0.01·mean(t) + 0.99·t₀. The reference program computes the same three from ITS target-logit column (an entry of its
  full cosine matrix) by the same operations in the same order. So each is stated here ONCE as a function of an
  arbitrary target-logit column (ctmOf, ftlsOf, tnewOf), both programs' arrays are shown to be that function of their own
  column, and the kernel's column is read at a row as the clipped inner product of the normalised feature row with the
  normalised label row of the weight matrix.
-/
import proofs.«406260_j17910013625058_3_alg».proof.Proof.Gen.KernelIdeal.Frame
import proofs.«406260_j17910013625058_3_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Glue

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen
open scoped BigOperators

/-! ## The three quantities as functions of a target-logit column -/

/-- A scalar word broadcast down a column. -/
abbrev col (w : BitVec 32) : FVec Ideal S512x1 .f32 :=
  broadcastInDim S512x1 ![] bcast_S_S512x1 (constant (F := Ideal) S_ .f32 w)

/-- The margin column cos(θ + m) = t·cos m − √(1 − t·t)·sin m of a target-logit column `t`. -/
def ctmOf (tl : FVec Ideal S512x1 .f32) : FVec Ideal S512x1 .f32 :=
  subf (mulf tl (col 0x3F60A940#32))
    (mulf (Host.sqrt (F := Ideal) (subf (col 0x3F800000#32) (mulf tl tl))) (col 0x3EF57744#32))

/-- The final target logit, scaled by 64: cos(θ + m) where `t` exceeds the threshold, else `t` less the linear
    penalty. -/
def ftlsOf (tl : FVec Ideal S512x1 .f32) : FVec Ideal S512x1 .f32 :=
  mulf (select (cmpf .ogt tl (col 0xBF60A940#32)) (ctmOf tl) (subf tl (col 0x3E757744#32))) (col 0x42800000#32)

/-- The running mean: (Σ t / 512)·0.01 + 0.99·t₀. -/
def tnewOf (tl : FVec Ideal S512x1 .f32) (x3 : FVec Ideal S1 .f32) : EReal :=
  addf (mulf (Host.divf (F := Ideal) (Host.reduceAdd (F := Ideal) tl (constant (F := Ideal) S_ .f32 0x00000000#32) reducesTo_S512x1_S_d0_1 h_S_)
        (constant (F := Ideal) S_ .f32 0x44000000#32)) (constant (F := Ideal) S_ .f32 0x3C23D70A#32))
    (mulf (constant (F := Ideal) S_ .f32 0x3F7D70A4#32) (shapeCast S_ x3 shapeCasts_S1_S_)) ix0

/-! ## The reference's stages are these functions of its target-logit column -/

section Reference

variable (x0 : (⟨S512x512, .f32⟩ : BufTy).Contents (Elt Ideal)) (x1 : (⟨S512, .i32⟩ : BufTy).Contents (Elt Ideal))
  (x2 : (⟨S200000x512, .f32⟩ : BufTy).Contents (Elt Ideal)) (x3 : (⟨S1, .f32⟩ : BufTy).Contents (Elt Ideal))

theorem ref_ctm : Cert.ReferenceIdeal.Read.val_main_v37 (F := Ideal) x0 x1 x2
    = ctmOf (Cert.ReferenceIdeal.Read.val_main_v28 (F := Ideal) x0 x1 x2) := rfl

theorem ref_ftl (r : Fin 512) : ftlsOf (Cert.ReferenceIdeal.Read.val_main_v28 (F := Ideal) x0 x1 x2) (ix2 r 0)
    = Cert.ReferenceIdeal.Read.val_main_v44 (F := Ideal) x0 x1 x2 (ix2 r 0) * Ideal.ofBits .f32 0x42800000#32 := by
  unfold ftlsOf
  rw [mulf_apply]
  refine congrArg₂ (· * ·) rfl ?_
  exact broadcastInDim_apply _ bcast_S_S512x1 _ _ ix0 (fun a => a.elim0)

theorem ref_tnew : Cert.ReferenceIdeal.Read.val_main_v50 (F := Ideal) x0 x1 x2 x3 ix0
    = tnewOf (Cert.ReferenceIdeal.Read.val_main_v28 (F := Ideal) x0 x1 x2) x3 := rfl

end Reference

/-! ## The kernel program's arrays when the region is entered -/

variable (m : (ℓ : Loc nD τ sig) → Buf (Elt Ideal) ℓ)

/-- The host operations before the region, as one list. -/
macro "host_prefix" : tactic =>
  `(tactic| (dsimp only [Gen.V]
             simp only [Gen.hostOps0, Gen.hostOps0_1, Gen.hostOps0_2, Gen.hostOps0_3, Gen.hostOps0_4, Gen.hostOps0_5,
               Gen.hostOps0_6, Gen.hostOps0_7, List.flatten_cons, List.flatten_nil, List.append_nil, List.cons_append,
               List.nil_append]))

set_option maxHeartbeats 4000000 in
/-- The feature block the region reads is the reference's normalised features (the narrowing to bf16 keeps every
    exact value). -/
theorem V_fn (c : Dev nD) : (Gen.V m c main_v45 : S512x512.Idx → EReal)
    = Cert.ReferenceIdeal.Read.val_main_v9 (F := Ideal) (m ((c : Thread nD τ).loc main_arg0)) := by
  host_prefix
  after_results_simp
  rfl

set_option maxHeartbeats 4000000 in
/-- The label column is the label vector, row by row. -/
theorem V_lbl (c : Dev nD) (r : Fin 512) :
    Gen.V m c main_v44 (ix2 r 0) = m ((c : Thread nD τ).loc main_arg1) (ix1 r) := by
  have e : (Gen.V m c main_v44 : S512x1.Idx → BitVec 32)
      = shapeCast S512x1 (m ((c : Thread nD τ).loc main_arg1) : S512.Idx → BitVec 32) shapeCasts_S512_S512x1 := by
    host_prefix
    after_results_simp
    rfl
  rw [e]
  exact shapeCast_apply (s := S512) (t := S512x1) _ shapeCasts_S512_S512x1 (ix2 r 0) (ix1 r)
    (by rw [Shape.rowMajor_val_two, Shape.rowMajor_val_one]; show r.val = r.val * 1 + 0; omega)

/-! ## The three columns the region reads, as functions of the kernel's target-logit column

The clip writes the target-logit column; the thirty-five operations after it read only that column, the running-mean
argument and constants. So the arrays at the region's entry are those operations run over the arrays as the clip
leaves them. -/

/-- The arrays after the host operations up to and including the clip. -/
def Vpre (c : Dev nD) : Valuation τ sig (Elt Ideal) :=
  StableHlo.after (List.flatten [hostOps0, hostOps0_1, hostOps0_2, hostOps0_3, hostOps0_4]) (fun b => m (c, b))

/-- The host operations after the clip. -/
abbrev tailOps : List (HloOp τ sig (Elt Ideal)) := List.flatten [hostOps0_5, hostOps0_6, hostOps0_7]

theorem V_tail (c : Dev nD) (b : Ref sig .tc) :
    Gen.V m c b = StableHlo.after tailOps (Vpre m c) (Proc.devRef .tc b) := by
  unfold Vpre
  rw [← StableHlo.after_append]
  rfl

macro "host_tail" : tactic =>
  `(tactic| (simp only [tailOps, Gen.hostOps0_5, Gen.hostOps0_6, Gen.hostOps0_7, List.flatten_cons, List.flatten_nil,
               List.append_nil, List.cons_append, List.nil_append]))

set_option maxHeartbeats 4000000 in
/-- The clip leaves the running-mean argument as launched. -/
theorem Vpre_arg3 (c : Dev nD) : Vpre m c (Proc.devRef .tc main_arg3) = m ((c : Thread nD τ).loc main_arg3) := by
  unfold Vpre
  simp only [Gen.hostOps0, Gen.hostOps0_1, Gen.hostOps0_2, Gen.hostOps0_3, Gen.hostOps0_4, List.flatten_cons,
    List.flatten_nil, List.append_nil, List.cons_append, List.nil_append]
  after_results_simp

set_option maxHeartbeats 4000000 in
/-- The margin column. -/
theorem V_ctm (c : Dev nD) : Gen.V m c main_v29 = ctmOf (Gen.V m c main_v20) := by
  rw [V_tail m c main_v29, V_tail m c main_v20]
  host_tail
  after_results_simp
  rfl

set_option maxHeartbeats 4000000 in
/-- The scaled final target logit. -/
theorem V_ftls (c : Dev nD) : Gen.V m c main_v36 = ftlsOf (Gen.V m c main_v20) := by
  rw [V_tail m c main_v36, V_tail m c main_v20]
  host_tail
  after_results_simp
  rfl

set_option maxHeartbeats 4000000 in
/-- The running mean, at the one entry of its [1, 1] array. -/
theorem V_tnew (c : Dev nD) :
    Gen.V m c main_v43 (ix2 0 0) = tnewOf (Gen.V m c main_v20) (m ((c : Thread nD τ).loc main_arg3)) := by
  rw [V_tail m c main_v43, V_tail m c main_v20, ← Vpre_arg3 m c]
  have e : (StableHlo.after tailOps (Vpre m c) (Proc.devRef .tc main_v43) : S1x1.Idx → EReal)
      = shapeCast S1x1 (addf (mulf (Host.divf (F := Ideal) (Host.reduceAdd (F := Ideal)
              (StableHlo.after tailOps (Vpre m c) (Proc.devRef .tc main_v20) : S512x1.Idx → EReal)
            (constant (F := Ideal) S_ .f32 0x00000000#32) reducesTo_S512x1_S_d0_1 h_S_)
          (constant (F := Ideal) S_ .f32 0x44000000#32)) (constant (F := Ideal) S_ .f32 0x3C23D70A#32))
        (mulf (constant (F := Ideal) S_ .f32 0x3F7D70A4#32)
          (shapeCast S_ (Vpre m c (Proc.devRef .tc main_arg3) : S1.Idx → EReal) shapeCasts_S1_S_))) shapeCasts_S_S1x1 := by
    host_tail
    after_results_simp
    rfl
  rw [e]
  exact shapeCast_apply _ _ _ ix0 (by decide)

end Cert.KernelIdeal.Glue

end
-- ==== Proof.TargetLogit.lean ====
/-
  The kernel program's target-logit column, read at one row as extended reals.

  Before its one region the kernel program normalises the features, wraps negative labels, gathers for every row r
  the weight row its label names, normalises the gathered rows, and takes for every row the inner product of the
  normalised feature row and the normalised gathered row, clamped to [-1, 1]. This module reads that column as the
  region finds it: at row r, whose label is a column, it is the clamped sum over the 512 coordinates of the
  normalised feature times the label's weight row divided by the larger of that row's Euclidean norm and the small
  constant, the sum started at the zero word.
-/
import proofs.«406260_j17910013625058_3_alg».proof.Proof.Gen.KernelIdeal.Frame
import proofs.«406260_j17910013625058_3_alg».proof.Proof.Gen.ReferenceIdeal.Read
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal.Laws

noncomputable section

namespace Cert.KernelIdeal.Target

open Cert.KernelIdeal Cert.KernelIdeal.Gen Idealize.ShloMosaic Idealize.ShloMosaic.TcCoe
  Idealize.SL.Sem Idealize.ShloMosaic.StableHlo Idealize.ShloMosaic.ValueIdx

/-! ## Words: a small non-negative integer read signed -/

/-- A 32-bit word that is non-negative read signed is its unsigned value. -/
theorem toInt_eq_toNat_of_nonneg (x : BitVec 32) (h : 0 ≤ x.toInt) : x.toInt = (x.toNat : Int) := by
  rw [BitVec.toInt_eq_toNat_cond] at h ⊢
  have := x.isLt
  split at h <;> split <;> omega

/-- The wrap of a negative index (add the extent where the word is below zero) keeps a non-negative word. -/
theorem select_slt_zero {α : Type} (x : BitVec 32) (a b : α) (hx : 0 ≤ x.toInt) :
    Scalar.select (IntOp.cmpi .slt x 0#32) a b = b := by
  have h : IntOp.cmpi .slt x 0#32 = 0#1 := by
    unfold IntOp.cmpi
    have : x.slt 0#32 = false := by
      rw [BitVec.slt]; simp only [BitVec.toInt_zero]; exact decide_eq_false (by omega)
    simp only [this]; rfl
  rw [h]; exact select_zero a b

/-! ## The layout operations of the column computations, read at an index -/

section Layout
variable {α : Type}

/-- A vector of 512 entries as a column: entry r at (r, 0). -/
theorem bcast_col_apply (y : S512.Idx → α) (r : Fin 512) :
    broadcastInDim S512x1 ![0] bcast_S512_S512x1_0 y (ix2 r 0) = y (ix1 r) :=
  broadcastInDim_apply _ bcast_S512_S512x1_0 y (ix2 r 0) (ix1 r) (fun a => match a with
    | ⟨0, _⟩ => by show r.val = if (512 : Nat) = 1 then 0 else r.val; rw [if_neg (by decide)])

/-- A column spread along the rows: entry (r, 0) at every (r, k). -/
theorem bcast_row_apply (y : S512x1.Idx → α) (r k : Fin 512) :
    broadcastInDim S512x512 ![0, 1] bcast_S512x1_S512x512_0_1 y (ix2 r k) = y (ix2 r 0) :=
  broadcastInDim_apply _ bcast_S512x1_S512x512_0_1 y (ix2 r k) (ix2 r 0) (fun a => match a with
    | ⟨0, _⟩ => by show r.val = if (512 : Nat) = 1 then 0 else r.val; rw [if_neg (by decide)]
    | ⟨1, _⟩ => by show 0 = if (1 : Nat) = 1 then 0 else k.val; rw [if_pos rfl])

/-- A scalar spread over a column. -/
theorem bcast_scalar_col (y : S_.Idx → α) (j : S512x1.Idx) :
    broadcastInDim S512x1 ![] bcast_S_S512x1 y j = y ix0 :=
  broadcastInDim_apply _ bcast_S_S512x1 y j ix0 (fun a => a.elim0)

/-- A scalar spread over a vector. -/
theorem bcast_scalar_vec (y : S_.Idx → α) (j : S512.Idx) :
    broadcastInDim S512 ![] bcast_S_S512 y j = y ix0 :=
  broadcastInDim_apply _ bcast_S_S512 y j ix0 (fun a => a.elim0)

/-- The sum along the rows of a 512 by 512 array, started at a scalar: at r, the scalar plus the 512 entries of row r. -/
theorem reduce_rows_apply (x : S512x512.Idx → EReal) (init : S_.Idx → EReal) (r : Fin 512) :
    Host.reduceAdd (F := Ideal) (φ := .f32) x init reducesTo_S512x512_S512_d1 h_S_ (ix1 r)
      = init (Shape.Idx.first h_S_) + ∑ k : Fin 512, x (ix2 r k) := by
  simp only [Host.reduceAdd, Ideal.hostReduceAdd_def]
  rw [Ideal.hostReduceAdd_single reducesTo_S512x512_S512_d1 (by decide)]
  refine congrArg (_ + ·) (Finset.sum_congr rfl fun k _ => ?_)
  exact congrArg x (funext fun a => Fin.ext (by match a with | ⟨0, _⟩ => rfl | ⟨1, _⟩ => rfl))

end Layout

/-! ## The gather of one weight row per label -/

section Gather
variable {α : Type}

/-- The gathered row: the start index read signed and clamped into the 200000 rows. -/
theorem gather_coord0 (idx : IVec S512x1 32) (r k : Fin 512) :
    (gather_S200000x512_S512x1_S512x512_1_0_n_n_0_1_1512.operandIdx (ix2 r k) idx 0).val
      = min (idx (ix2 r 0)).toInt.toNat 199999 := by
  show gather_S200000x512_S512x1_S512x512_1_0_n_n_0_1_1512.start (ix2 r k) idx 0
    + gather_S200000x512_S512x1_S512x512_1_0_n_n_0_1_1512.batchCoord (ix2 r k) 0
    + gather_S200000x512_S512x1_S512x512_1_0_n_n_0_1_1512.offCoord (ix2 r k) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S200000x512.rank) ∈ gather_S200000x512_S512x1_S512x512_1_0_n_n_0_1_1512.startIndexMap from by decide)]
  have hsi : gather_S200000x512_S512x1_S512x512_1_0_n_n_0_1_1512.siIdx (ix2 r k)
      ⟨List.idxOf (0 : Fin S200000x512.rank) gather_S200000x512_S512x1_S512x512_1_0_n_n_0_1_1512.startIndexMap,
        List.idxOf_lt_length_iff.2 (by decide)⟩ = ix2 r 0 := by
    funext b; refine Fin.ext ?_
    match b with
    | ⟨0, _⟩ => rfl
    | ⟨1, _⟩ => rfl
  rw [hsi]
  rfl

/-- The gathered column: the whole row is taken, coordinate k from coordinate k. -/
theorem gather_coord1 (idx : IVec S512x1 32) (r k : Fin 512) :
    (gather_S200000x512_S512x1_S512x512_1_0_n_n_0_1_1512.operandIdx (ix2 r k) idx 1).val = k.val := by
  show gather_S200000x512_S512x1_S512x512_1_0_n_n_0_1_1512.start (ix2 r k) idx 1
    + gather_S200000x512_S512x1_S512x512_1_0_n_n_0_1_1512.batchCoord (ix2 r k) 1
    + gather_S200000x512_S512x1_S512x512_1_0_n_n_0_1_1512.offCoord (ix2 r k) 1 = _
  have hs : gather_S200000x512_S512x1_S512x512_1_0_n_n_0_1_1512.start (ix2 r k) idx 1 = 0 := by
    unfold GatherDims.start
    rw [dif_neg (by decide)]
  have ho : gather_S200000x512_S512x1_S512x512_1_0_n_n_0_1_1512.offCoord (ix2 r k) 1 = k.val := by
    unfold GatherDims.offCoord
    rw [dif_pos (by decide)]
    rfl
  rw [GatherDims.batchCoord_eq_zero _ _ _ List.not_mem_nil, hs, ho]
  omega

/-- The gather at (r, k), row r's start index a row c of the operand: the operand at (c, k). -/
theorem gather_apply_of (x : S200000x512.Idx → α) (idx : IVec S512x1 32) (r k : Fin 512) (c : Fin 200000)
    (h : (idx (ix2 r 0)).toInt = (c.val : Int)) :
    Host.gather gather_S200000x512_S512x1_S512x512_1_0_n_n_0_1_1512 x idx (ix2 r k) = x (ix2 c k) := by
  unfold Host.gather
  congr 1
  funext a
  refine Fin.ext ?_
  match a with
  | ⟨0, _⟩ =>
    refine (gather_coord0 idx r k).trans ?_
    show _ = c.val
    have := c.isLt
    omega
  | ⟨1, _⟩ => exact gather_coord1 idx r k

end Gather

/-! ## The stages as functions of the arguments -/

/-- The labels, negative ones wrapped by the number of columns, as a column of start indices. -/
def startIdx (x1 : (⟨S512, .i32⟩ : BufTy).Contents (Elt Ideal)) : (⟨S512x1, .i32⟩ : BufTy).Contents (Elt Ideal) :=
  broadcastInDim S512x1 ![0] bcast_S512_S512x1_0
    (select (cmpi .slt x1 (broadcastInDim S512 ![] bcast_S_S512 (constantI S_ 32 0#32)))
      (addi x1 (broadcastInDim S512 ![] bcast_S_S512 (constantI S_ 32 200000#32))) x1)

/-- A non-negative label is its own start index. -/
theorem startIdx_apply (x1 : (⟨S512, .i32⟩ : BufTy).Contents (Elt Ideal)) (r : Fin 512) (h : 0 ≤ (x1 (ix1 r)).toInt) :
    startIdx x1 (ix2 r 0) = x1 (ix1 r) := by
  unfold startIdx
  rw [bcast_col_apply]
  show Scalar.select (IntOp.cmpi .slt (x1 (ix1 r)) (broadcastInDim S512 ![] bcast_S_S512 (constantI S_ 32 0#32) (ix1 r))) _
    (x1 (ix1 r)) = _
  rw [bcast_scalar_vec]
  exact select_slt_zero _ _ _ h

/-- The weight rows the labels name, one per feature row. -/
def labelRows (x1 : (⟨S512, .i32⟩ : BufTy).Contents (Elt Ideal)) (x2 : (⟨S200000x512, .f32⟩ : BufTy).Contents (Elt Ideal)) :
    (⟨S512x512, .f32⟩ : BufTy).Contents (Elt Ideal) :=
  Host.gather gather_S200000x512_S512x1_S512x512_1_0_n_n_0_1_1512 x2 (startIdx x1)

/-- Row r of them, its label a column c, is weight row c. -/
theorem labelRows_apply (x1 : (⟨S512, .i32⟩ : BufTy).Contents (Elt Ideal)) (x2 : (⟨S200000x512, .f32⟩ : BufTy).Contents (Elt Ideal))
    (r k : Fin 512) (c : Fin 200000) (h0 : 0 ≤ (x1 (ix1 r)).toInt) (hc : (x1 (ix1 r)).toNat = c.val) :
    labelRows x1 x2 (ix2 r k) = x2 (ix2 c k) := by
  unfold labelRows
  refine gather_apply_of x2 _ r k c ?_
  rw [startIdx_apply x1 r h0, toInt_eq_toNat_of_nonneg _ h0, hc]

/-- The larger of each row's Euclidean norm and the small constant, as a column. -/
def rowNorm (G : (⟨S512x512, .f32⟩ : BufTy).Contents (Elt Ideal)) : (⟨S512x1, .f32⟩ : BufTy).Contents (Elt Ideal) :=
  maximumf (F := Ideal) (φ := .f32)
    (Host.sqrt (F := Ideal) (φ := .f32) (broadcastInDim S512x1 ![0] bcast_S512_S512x1_0
      (Host.reduceAdd (F := Ideal) (φ := .f32) (mulf (F := Ideal) (φ := .f32) G G) (constant (F := Ideal) S_ .f32 0x00000000#32)
        reducesTo_S512x512_S512_d1 h_S_)))
    (broadcastInDim S512x1 ![] bcast_S_S512x1 (constant (F := Ideal) S_ .f32 0x2B8CBCCC#32))

theorem rowNorm_apply (G : (⟨S512x512, .f32⟩ : BufTy).Contents (Elt Ideal)) (r : Fin 512) :
    rowNorm G (ix2 r 0)
      = max (Ideal.sqrt (Ideal.ofBits .f32 0x00000000#32 + ∑ k : Fin 512, G (ix2 r k) * G (ix2 r k)))
          (Ideal.ofBits .f32 0x2B8CBCCC#32) := by
  unfold rowNorm
  rw [maximumf_apply, bcast_scalar_col]
  simp only [Host.sqrt]
  rw [bcast_col_apply, reduce_rows_apply]
  rfl

/-- Every row divided by the larger of its norm and the constant. -/
def normalise (G : (⟨S512x512, .f32⟩ : BufTy).Contents (Elt Ideal)) : (⟨S512x512, .f32⟩ : BufTy).Contents (Elt Ideal) :=
  Host.divf (F := Ideal) (φ := .f32) G (broadcastInDim S512x512 ![0, 1] bcast_S512x1_S512x512_0_1 (rowNorm G))

theorem normalise_apply (G : (⟨S512x512, .f32⟩ : BufTy).Contents (Elt Ideal)) (r k : Fin 512) :
    normalise G (ix2 r k)
      = Ideal.div (G (ix2 r k))
          (max (Ideal.sqrt (Ideal.ofBits .f32 0x00000000#32 + ∑ k' : Fin 512, G (ix2 r k') * G (ix2 r k')))
            (Ideal.ofBits .f32 0x2B8CBCCC#32)) := by
  unfold normalise
  show Ideal.div (G (ix2 r k)) (broadcastInDim S512x512 ![0, 1] bcast_S512x1_S512x512_0_1 (rowNorm G) (ix2 r k)) = _
  rw [bcast_row_apply, rowNorm_apply]

/-- The normalised features are the reference's, operation for operation. -/
theorem normalise_eq_ref (x0 : (⟨S512x512, .f32⟩ : BufTy).Contents (Elt Ideal)) :
    normalise x0 = Cert.ReferenceIdeal.Read.val_main_v9 (F := Ideal) x0 := rfl

/-- The row-wise inner product of two 512 by 512 arrays, started at the zero word and clamped to [-1, 1], as a column. -/
def clipDot (A B : (⟨S512x512, .f32⟩ : BufTy).Contents (Elt Ideal)) : (⟨S512x1, .f32⟩ : BufTy).Contents (Elt Ideal) :=
  minimumf (F := Ideal) (φ := .f32)
    (broadcastInDim S512x1 ![] bcast_S_S512x1 (id (constant (F := Ideal) S_ .f32 0x3F800000#32)))
    (maximumf (F := Ideal) (φ := .f32)
      (broadcastInDim S512x1 ![] bcast_S_S512x1 (id (constant (F := Ideal) S_ .f32 0xBF800000#32)))
      (broadcastInDim S512x1 ![0] bcast_S512_S512x1_0
        (Host.reduceAdd (F := Ideal) (φ := .f32) (mulf (F := Ideal) (φ := .f32) A B) (constant (F := Ideal) S_ .f32 0x00000000#32)
          reducesTo_S512x512_S512_d1 h_S_)))

theorem clipDot_apply (A B : (⟨S512x512, .f32⟩ : BufTy).Contents (Elt Ideal)) (r : Fin 512) :
    clipDot A B (ix2 r 0)
      = min (Ideal.ofBits .f32 0x3F800000#32) (max (Ideal.ofBits .f32 0xBF800000#32)
          (Ideal.ofBits .f32 0x00000000#32 + ∑ k : Fin 512, A (ix2 r k) * B (ix2 r k))) := by
  unfold clipDot
  rw [minimumf_apply, maximumf_apply, bcast_scalar_col, bcast_scalar_col, bcast_col_apply, reduce_rows_apply]
  rfl

/-! ## The host operations before the region, one line at a time, from any contents -/

section Lines
variable (W : Valuation τ sig (Elt Ideal))

/-- The first norm's line leaves the arguments and computes the feature rows' norms. -/
theorem line0_arg0 : StableHlo.after hostOps0 W (Proc.devRef .tc main_arg0) = W (Proc.devRef .tc main_arg0) := by
  after_results <;> rfl
theorem line0_arg1 : StableHlo.after hostOps0 W (Proc.devRef .tc main_arg1) = W (Proc.devRef .tc main_arg1) := by
  after_results <;> rfl
theorem line0_arg2 : StableHlo.after hostOps0 W (Proc.devRef .tc main_arg2) = W (Proc.devRef .tc main_arg2) := by
  after_results <;> rfl
theorem line0_v0 :
    (StableHlo.after hostOps0 W (Proc.devRef .tc main_v0) : S512x1.Idx → EReal)
      = Host.sqrt (F := Ideal) (φ := .f32) (broadcastInDim S512x1 ![0] bcast_S512_S512x1_0
          (Host.reduceAdd (F := Ideal) (φ := .f32)
            (mulf (F := Ideal) (φ := .f32) (W (Proc.devRef .tc main_arg0)) (W (Proc.devRef .tc main_arg0)))
            (constant (F := Ideal) S_ .f32 0x00000000#32) reducesTo_S512x512_S512_d1 h_S_)) := by
  after_results <;> rfl

/-- The second line: the normalised features and the gathered weight rows. -/
theorem line1_v4 :
    (StableHlo.after hostOps0_1 W (Proc.devRef .tc main_v4) : S512x512.Idx → EReal)
      = Host.divf (F := Ideal) (φ := .f32) (W (Proc.devRef .tc main_arg0))
          (broadcastInDim S512x512 ![0, 1] bcast_S512x1_S512x512_0_1
            (maximumf (F := Ideal) (φ := .f32) (W (Proc.devRef .tc main_v0))
              (broadcastInDim S512x1 ![] bcast_S_S512x1 (constant (F := Ideal) S_ .f32 0x2B8CBCCC#32)))) := by
  after_results <;> rfl
theorem line1_v11 :
    (StableHlo.after hostOps0_1 W (Proc.devRef .tc main_v11) : S512x512.Idx → EReal)
      = labelRows (W (Proc.devRef .tc main_arg1)) (W (Proc.devRef .tc main_arg2)) := by
  after_results <;> rfl

/-- The second norm's line leaves both and computes the gathered rows' norms. -/
theorem line2_v4 : StableHlo.after hostOps0_2 W (Proc.devRef .tc main_v4) = W (Proc.devRef .tc main_v4) := by
  after_results <;> rfl
theorem line2_v11 : StableHlo.after hostOps0_2 W (Proc.devRef .tc main_v11) = W (Proc.devRef .tc main_v11) := by
  after_results <;> rfl
theorem line2_v12 :
    (StableHlo.after hostOps0_2 W (Proc.devRef .tc main_v12) : S512x1.Idx → EReal)
      = Host.sqrt (F := Ideal) (φ := .f32) (broadcastInDim S512x1 ![0] bcast_S512_S512x1_0
          (Host.reduceAdd (F := Ideal) (φ := .f32)
            (mulf (F := Ideal) (φ := .f32) (W (Proc.devRef .tc main_v11)) (W (Proc.devRef .tc main_v11)))
            (constant (F := Ideal) S_ .f32 0x00000000#32) reducesTo_S512x512_S512_d1 h_S_)) := by
  after_results <;> rfl

/-- The fourth line: the row-wise inner products as a column, and the clip's two constants. -/
theorem line3_cst3 :
    (StableHlo.after hostOps0_3 W (Proc.devRef .tc main_cst_3) : S_.Idx → EReal)
      = constant (F := Ideal) S_ .f32 0xBF800000#32 := by
  after_results <;> rfl
theorem line3_cst4 :
    (StableHlo.after hostOps0_3 W (Proc.devRef .tc main_cst_4) : S_.Idx → EReal)
      = constant (F := Ideal) S_ .f32 0x3F800000#32 := by
  after_results <;> rfl
theorem line3_v19 :
    (StableHlo.after hostOps0_3 W (Proc.devRef .tc main_v19) : S512x1.Idx → EReal)
      = broadcastInDim S512x1 ![0] bcast_S512_S512x1_0
          (Host.reduceAdd (F := Ideal) (φ := .f32)
            (mulf (F := Ideal) (φ := .f32) (W (Proc.devRef .tc main_v4))
              (Host.divf (F := Ideal) (φ := .f32) (W (Proc.devRef .tc main_v11))
                (broadcastInDim S512x512 ![0, 1] bcast_S512x1_S512x512_0_1
                  (maximumf (F := Ideal) (φ := .f32) (W (Proc.devRef .tc main_v12))
                    (broadcastInDim S512x1 ![] bcast_S_S512x1 (constant (F := Ideal) S_ .f32 0x2B8CBCCC#32))))))
            (constant (F := Ideal) S_ .f32 0x00000000#32) reducesTo_S512x512_S512_d1 h_S_) := by
  after_results <;> rfl

/-- The clip's line: the column clamped below by the first constant and above by the second. -/
theorem line4_v20 :
    (StableHlo.after hostOps0_4 W (Proc.devRef .tc main_v20) : S512x1.Idx → EReal)
      = minimumf (F := Ideal) (φ := .f32) (broadcastInDim S512x1 ![] bcast_S_S512x1 (id (W (Proc.devRef .tc main_cst_4))))
          (maximumf (F := Ideal) (φ := .f32) (broadcastInDim S512x1 ![] bcast_S_S512x1 (id (W (Proc.devRef .tc main_cst_3))))
            (W (Proc.devRef .tc main_v19))) := by
  after_results <;> rfl

/-- No later line writes the column. -/
theorem line5_v20 : StableHlo.after hostOps0_5 W (Proc.devRef .tc main_v20) = W (Proc.devRef .tc main_v20) := by
  after_results <;> rfl
theorem line6_v20 : StableHlo.after hostOps0_6 W (Proc.devRef .tc main_v20) = W (Proc.devRef .tc main_v20) := by
  after_results <;> rfl
theorem line7_v20 : StableHlo.after hostOps0_7 W (Proc.devRef .tc main_v20) = W (Proc.devRef .tc main_v20) := by
  after_results <;> rfl

end Lines

/-! ## The column as the region finds it -/

/-- The target-logit column when the region is entered, as one term of the three arguments. -/
theorem V_v20_eq (m : (ℓ : Loc nD τ sig) → Buf (Elt Ideal) ℓ) (c : Dev nD) :
    (Gen.V m c main_v20 : S512x1.Idx → EReal)
      = clipDot (normalise (m ((c : Thread nD τ).loc main_arg0)))
          (normalise (labelRows (m ((c : Thread nD τ).loc main_arg1)) (m ((c : Thread nD τ).loc main_arg2)))) := by
  dsimp only [Gen.V]
  simp only [List.flatten_cons, List.flatten_nil, List.append_nil, StableHlo.after_append]
  rw [line7_v20, line6_v20, line5_v20, line4_v20, line3_cst4, line3_cst3, line3_v19, line2_v4, line2_v11, line2_v12,
    line1_v4, line1_v11, line0_v0, line0_arg0, line0_arg1, line0_arg2]
  rfl

/-- THE TARGET LOGIT OF ROW r AS THE REGION FINDS IT, the row's label a column: the clamped inner product of the
    normalised feature row and the normalised weight row of the label, the sum started at the zero word. The three
    arguments are named x0 (features), x1 (labels), x2 (weight) by equations, so that their elements are extended
    reals and words on the nose. -/
theorem V_tl_apply (m : (ℓ : Loc nD τ sig) → Buf (Elt Ideal) ℓ) (c : Dev nD) (r : Fin 512)
    (x0 : (⟨S512x512, .f32⟩ : BufTy).Contents (Elt Ideal)) (x1 : (⟨S512, .i32⟩ : BufTy).Contents (Elt Ideal))
    (x2 : (⟨S200000x512, .f32⟩ : BufTy).Contents (Elt Ideal))
    (h0 : x0 = m ((c : Thread nD τ).loc main_arg0)) (h1 : x1 = m ((c : Thread nD τ).loc main_arg1))
    (h2 : x2 = m ((c : Thread nD τ).loc main_arg2))
    (hL : 0 ≤ (x1 (ix1 r)).toInt ∧ (x1 (ix1 r)).toInt < 200000)
    (lab : Fin 200000) (hlab : lab.val = (x1 (ix1 r)).toNat) :
    Gen.V m c main_v20 (ix2 r 0)
      = min (Ideal.ofBits .f32 0x3F800000#32) (max (Ideal.ofBits .f32 0xBF800000#32)
          (Ideal.ofBits .f32 0x00000000#32 + ∑ k : Fin 512,
            Cert.ReferenceIdeal.Read.val_main_v9 (F := Ideal) x0 (ix2 r k)
              * Ideal.div (x2 (ix2 lab k))
                  (max (Ideal.sqrt (Ideal.ofBits .f32 0x00000000#32 + ∑ k' : Fin 512, x2 (ix2 lab k') * x2 (ix2 lab k')))
                    (Ideal.ofBits .f32 0x2B8CBCCC#32)))) := by
  subst h0 h1 h2
  have e := congrFun (V_v20_eq m c) (ix2 r 0)
  refine e.trans ?_
  rw [clipDot_apply, normalise_eq_ref]
  simp only [normalise_apply, labelRows_apply _ _ r _ lab hL.1 hlab.symm]

end Cert.KernelIdeal.Target

end
-- ==== Proof.RefIndex.lean ====
/-
  The reference program read at one element of its result, as extended reals.

  The result [512, 200000] is the reweighted clipped cosine matrix with, in every row r, the entry at the
  row's label column replaced by the row's final target logit, all scaled by 64. This module reads each stage
  at an index built from its coordinates: the normalised operands (a row divided by the larger of its Euclidean
  norm and a small constant), the clipped cosine (a 512-term inner product clamped to [-1, 1]), the
  reweighting select, the two-index gather cos[r, label r] and the scatter that writes one update per row.
  Under the hypothesis that every label lies in [0, 200000) the negative-label wrap is the identity, every
  gather and scatter index is in range, and distinct rows write distinct positions, so the scatter's result
  at (r, c) is row r's update when c is the label of r and the operand otherwise.
-/
import proofs.«406260_j17910013625058_3_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefIndex

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The normalised operands -/

/-- A normalised weight row: the element divided by the larger of the row's Euclidean norm and the constant. -/
theorem wn_apply (x2 : (⟨S200000x512, .f32⟩ : BufTy).Contents (Elt Ideal)) (col : Fin 200000) (k : Fin 512) :
    val_main_v4 (F := Ideal) x2 (ix2 col k)
      = Ideal.div (x2 (ix2 col k))
          (max (Ideal.sqrt (Ideal.ofBits .f32 0x00000000#32 + ∑ k' : Fin 512, x2 (ix2 col k') * x2 (ix2 col k')))
            (Ideal.ofBits .f32 0x2B8CBCCC#32)) := by
  have e1 : ∀ k' : Fin 512, idx_main_call0_v1 (idx_main_call0_v2 (idx_main_v3 (ix2 col k))) k' = ix2 col k' := fun k' =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_call0_cst_apply, val_main_v1_apply, val_main_cst_apply]
  simp only [val_main_call0_v0_apply, e1, Ideal.hostDivf_def, Ideal.maximumf_def, Ideal.hostUnary_sqrt_def,
    Ideal.mulf_def, Ideal.ofBits_def]

/-- A normalised feature row, likewise. -/
theorem fn_apply (x0 : (⟨S512x512, .f32⟩ : BufTy).Contents (Elt Ideal)) (r : Fin 512) (k : Fin 512) :
    val_main_v9 (F := Ideal) x0 (ix2 r k)
      = Ideal.div (x0 (ix2 r k))
          (max (Ideal.sqrt (Ideal.ofBits .f32 0x00000000#32 + ∑ k' : Fin 512, x0 (ix2 r k') * x0 (ix2 r k')))
            (Ideal.ofBits .f32 0x2B8CBCCC#32)) := by
  have e1 : ∀ k' : Fin 512, idx_main_call1_v1 (idx_main_call1_v2 (idx_main_v8 (ix2 r k))) k' = ix2 r k' := fun k' =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_call1_cst_apply, val_main_v6_apply, val_main_cst_0_apply]
  simp only [val_main_call1_v0_apply, e1, Ideal.hostDivf_def, Ideal.maximumf_def, Ideal.hostUnary_sqrt_def,
    Ideal.mulf_def, Ideal.ofBits_def]

/-! ## The clipped cosine -/

/-- The clipped cosine at (r, col): the inner product of normalised feature row r and normalised weight row
    col, clamped below by -1 and above by 1. -/
theorem cos_apply (x0 : (⟨S512x512, .f32⟩ : BufTy).Contents (Elt Ideal))
    (x2 : (⟨S200000x512, .f32⟩ : BufTy).Contents (Elt Ideal)) (r : Fin 512) (col : Fin 200000) :
    val_main_v12 (F := Ideal) x0 x2 (ix2 r col)
      = min (Ideal.ofBits .f32 0x3F800000#32) (max (Ideal.ofBits .f32 0xBF800000#32)
          (∑ k : Fin 512, val_main_v9 (F := Ideal) x0 (ix2 r k) * val_main_v4 (F := Ideal) x2 (ix2 col k))) := by
  have el : ∀ k : Fin 512, lidx_main_v11 (ix2 r col) k = ix2 r k := fun k =>
    funext fun a => Fin.ext (by match a with | ⟨0, _⟩ => rfl | ⟨1, _⟩ => rfl)
  have er : ∀ k : Fin 512, idx_main_v10 (ridx_main_v11 (ix2 r col) k) = ix2 col k := fun k =>
    funext fun a => Fin.ext (by match a with | ⟨0, _⟩ => rfl | ⟨1, _⟩ => rfl)
  rw [val_main_v12_apply, val_main_call2_v4_apply, val_main_call2_v3_apply, val_main_cst_2_apply,
    val_main_call2_v2_apply, val_main_call2_v1_apply, val_main_call2_v0_apply, val_main_cst_1_apply,
    val_main_v11_apply]
  simp only [val_main_v10_apply, el, er, Ideal.minimumf_def, Ideal.maximumf_def, Ideal.ofBits_def]

/-! ## The reweighting -/

/-- The reweighted cosine at (r, col): where the cosine exceeds row r's margin value it is multiplied by the
    running mean plus itself, elsewhere it is kept. -/
theorem rew_apply (x0 : (⟨S512x512, .f32⟩ : BufTy).Contents (Elt Ideal)) (x1 : (⟨S512, .i32⟩ : BufTy).Contents (Elt Ideal))
    (x2 : (⟨S200000x512, .f32⟩ : BufTy).Contents (Elt Ideal)) (x3 : (⟨S1, .f32⟩ : BufTy).Contents (Elt Ideal))
    (r : Fin 512) (col : Fin 200000) :
    val_main_v54 (F := Ideal) x0 x1 x2 x3 (ix2 r col)
      = Scalar.select (FloatOps.cmpf (F := Ideal) (φ := .f32) .ogt (val_main_v12 (F := Ideal) x0 x2 (ix2 r col))
            (val_main_v37 (F := Ideal) x0 x1 x2 (ix2 r 0)))
          (val_main_v12 (F := Ideal) x0 x2 (ix2 r col)
            * (val_main_v50 (F := Ideal) x0 x1 x2 x3 ix0 + val_main_v12 (F := Ideal) x0 x2 (ix2 r col)))
          (val_main_v12 (F := Ideal) x0 x2 (ix2 r col)) := by
  have e38 : idx_main_v38 (ix2 r col) = ix2 r 0 :=
    funext fun a => Fin.ext (by match a with | ⟨0, _⟩ => rfl | ⟨1, _⟩ => rfl)
  have e51 : idx_main_v51 (ix2 r col) = ix0 := funext fun a => a.elim0
  rw [val_main_v54_apply, val_main_v39_apply, val_main_v38_apply, val_main_v53_apply, val_main_v52_apply,
    val_main_v51_apply, e38, e51]
  simp only [Ideal.mulf_def, Ideal.addf_def]

/-! ## Words: small non-negative integers read signed -/

/-- A 32-bit word that is non-negative read signed is its unsigned value. -/
theorem toInt_eq_toNat_of_nonneg (x : BitVec 32) (h : 0 ≤ x.toInt) : x.toInt = (x.toNat : Int) := by
  rw [BitVec.toInt_eq_toNat_cond] at h ⊢
  have := x.isLt
  split at h <;> split <;> omega

/-- A row number below 512 as a word, read signed, is the row number. -/
theorem toInt_ofNat_small (n : Nat) (h : n < 512) : (BitVec.ofNat 32 n).toInt = (n : Int) := by
  rw [BitVec.toInt_eq_toNat_cond, BitVec.toNat_ofNat]
  have : n % 2 ^ 32 = n := Nat.mod_eq_of_lt (by omega)
  rw [this]; split <;> omega

/-- The wrap of a negative index (add the extent where the word is below zero) keeps a non-negative word. -/
theorem select_slt_zero {α : Type} (x : BitVec 32) (a b : α) (hx : 0 ≤ x.toInt) :
    Scalar.select (IntOp.cmpi .slt x 0#32) a b = b := by
  have h : IntOp.cmpi .slt x 0#32 = 0#1 := by
    unfold IntOp.cmpi
    have : x.slt 0#32 = false := by
      rw [BitVec.slt]; simp only [BitVec.toInt_zero]; exact decide_eq_false (by omega)
    simp only [this]; rfl
  rw [h]; exact select_zero a b

/-! ## Setting one value per list entry -/

section Fold
variable {ι β α : Type} [DecidableEq β]

/-- Writing one value per list entry, each at its own position: a position no entry names keeps the start value. -/
theorem foldl_set_miss (g : ι → β) (v : ι → α) (l : List ι) (x : β → α) (i : β) (h : ∀ n ∈ l, g n ≠ i) :
    (l.foldl (fun r n => fun i' => if i' = g n then v n else r i') x) i = x i := by
  induction l generalizing x with
  | nil => rfl
  | cons a t ih =>
    rw [List.foldl_cons, ih _ (fun n hn => h n (List.mem_cons_of_mem a hn))]
    exact if_neg (fun e => h a (List.mem_cons_self) e.symm)

/-- A position exactly one entry names ends at that entry's value. -/
theorem foldl_set_hit (g : ι → β) (v : ι → α) (l : List ι) (x : β → α) (i : β) (n0 : ι) (hn0 : n0 ∈ l) (hg : g n0 = i)
    (hnd : l.Nodup) (hu : ∀ n ∈ l, g n = i → n = n0) :
    (l.foldl (fun r n => fun i' => if i' = g n then v n else r i') x) i = v n0 := by
  induction l generalizing x with
  | nil => cases hn0
  | cons a t ih =>
    rw [List.foldl_cons]
    rw [List.nodup_cons] at hnd
    by_cases ha : a = n0
    · subst ha
      rw [foldl_set_miss g v t _ i (fun n hn e => hnd.1 (by rw [← hu n (List.mem_cons_of_mem a hn) e]; exact hn))]
      exact if_pos hg.symm
    · have : n0 ∈ t := by
        rcases List.mem_cons.mp hn0 with h | h
        · exact absurd h.symm ha
        · exact h
      exact ih _ this hnd.2 (fun n hn => hu n (List.mem_cons_of_mem a hn))

end Fold

/-! ## A scatter that sets, every update landing inside the operand at a position of its own -/

section Scatter
variable {s si u : Shape} {w : Nat} {α : Type}

/-- The scatter as the fold with the landing positions named: update n lands at g n. -/
theorem scatter_set_eq (d : ScatterDims s si u) (x : s.Idx → α) (idx : IVec si w) (upd : u.Idx → α)
    (g : Fin u.numel → s.Idx) (hres : ∀ n, d.resultIdx? (u.rowMajor.symm n) idx = some (g n)) :
    Host.scatter d (fun _ b => b) x idx upd
      = (List.finRange u.numel).foldl (fun r n => fun i' => if i' = g n then upd (u.rowMajor.symm n) else r i') x := by
  unfold Host.scatter
  congr 1
  funext r n
  rw [hres n]

/-- At a landing position the result is the update that lands there, when no two updates share a position. -/
theorem scatter_set_hit (d : ScatterDims s si u) (x : s.Idx → α) (idx : IVec si w) (upd : u.Idx → α)
    (g : Fin u.numel → s.Idx) (hres : ∀ n, d.resultIdx? (u.rowMajor.symm n) idx = some (g n))
    (hinj : Function.Injective g) (n0 : Fin u.numel) :
    Host.scatter d (fun _ b => b) x idx upd (g n0) = upd (u.rowMajor.symm n0) := by
  rw [scatter_set_eq d x idx upd g hres]
  exact foldl_set_hit g (fun n => upd (u.rowMajor.symm n)) _ x (g n0) n0 (List.mem_finRange n0) rfl
    (List.nodup_finRange _) (fun n _ e => hinj e)

/-- Anywhere else the result is the operand. -/
theorem scatter_set_miss (d : ScatterDims s si u) (x : s.Idx → α) (idx : IVec si w) (upd : u.Idx → α)
    (g : Fin u.numel → s.Idx) (hres : ∀ n, d.resultIdx? (u.rowMajor.symm n) idx = some (g n))
    (i : s.Idx) (hi : ∀ n, g n ≠ i) :
    Host.scatter d (fun _ b => b) x idx upd i = x i := by
  rw [scatter_set_eq d x idx upd g hres]
  exact foldl_set_miss g (fun n => upd (u.rowMajor.symm n)) _ x i (fun n _ => hi n)

end Scatter

/-! ## The index arrays: column 0 the row number, column 1 the label -/

/-- The row numbers 0 … 511 are non-negative words, so their wrap is the identity. -/
theorem v18_apply (r : Fin 512) : val_main_v18 (F := Ideal) (ix1 r) = BitVec.ofNat 32 r.val := by
  rw [val_main_v18_apply, val_main_v15_apply, val_main_v14_apply, val_main_c_apply, val_main_v13_apply]
  exact select_slt_zero _ _ _ (by rw [toInt_ofNat_small _ r.isLt]; omega)

theorem v60_apply (r : Fin 512) : val_main_v60 (F := Ideal) (ix1 r) = BitVec.ofNat 32 r.val := by
  rw [val_main_v60_apply, val_main_v57_apply, val_main_v56_apply, val_main_c_15_apply, val_main_v13_apply]
  exact select_slt_zero _ _ _ (by rw [toInt_ofNat_small _ r.isLt]; omega)

/-- A non-negative label is kept by the wrap. -/
theorem v23_apply (x1 : (⟨S512, .i32⟩ : BufTy).Contents (Elt Ideal)) (r : Fin 512) (h : 0 ≤ (x1 (ix1 r)).toInt) :
    val_main_v23 (F := Ideal) x1 (ix1 r) = x1 (ix1 r) := by
  rw [val_main_v23_apply, val_main_v20_apply, val_main_v19_apply, val_main_c_4_apply]
  exact select_slt_zero _ _ _ h

theorem v65_apply (x1 : (⟨S512, .i32⟩ : BufTy).Contents (Elt Ideal)) (r : Fin 512) (h : 0 ≤ (x1 (ix1 r)).toInt) :
    val_main_v65 (F := Ideal) x1 (ix1 r) = x1 (ix1 r) := by
  rw [val_main_v65_apply, val_main_v62_apply, val_main_v61_apply, val_main_c_17_apply]
  exact select_slt_zero _ _ _ h

/-- The gather's index array at (r, 0): the row number. -/
theorem v26_row (x1 : (⟨S512, .i32⟩ : BufTy).Contents (Elt Ideal)) (r : Fin 512) :
    val_main_v26 (F := Ideal) x1 (ix2 r 0) = BitVec.ofNat 32 r.val := by
  have e : idx_main_v24 (ix2 r 0) = ix1 r := funext fun a => Fin.ext (by match a with | ⟨0, _⟩ => rfl)
  unfold val_main_v26
  refine (concatenate_pair_apply_left (t := S512x2) (s₁ := S512x1) (s₂ := S512x1) (1 : Fin 2) _ _ _
    (ix2 r (0 : Fin 2)) rfl (ix2 r (0 : Fin 1)) (fun b => by match b with | ⟨0, _⟩ => rfl | ⟨1, _⟩ => rfl)).trans ?_
  rw [val_main_v24_apply, e, v18_apply]

/-- The gather's index array at (r, 1): row r's label. -/
theorem v26_lab (x1 : (⟨S512, .i32⟩ : BufTy).Contents (Elt Ideal)) (r : Fin 512) (h : 0 ≤ (x1 (ix1 r)).toInt) :
    val_main_v26 (F := Ideal) x1 (ix2 r 1) = x1 (ix1 r) := by
  have e : idx_main_v25 (ix2 r 0) = ix1 r := funext fun a => Fin.ext (by match a with | ⟨0, _⟩ => rfl)
  unfold val_main_v26
  refine (concatenate_pair_apply_right (t := S512x2) (s₁ := S512x1) (s₂ := S512x1) (1 : Fin 2) _ _ _
    (ix2 r (1 : Fin 2)) rfl rfl (ix2 r (0 : Fin 1))
    (fun b hb => by match b with | ⟨0, _⟩ => rfl | ⟨1, _⟩ => exact absurd rfl hb) rfl).trans ?_
  rw [val_main_v25_apply, e, v23_apply x1 r h]

/-- The scatter's index array at (r, 0): the row number. -/
theorem v68_row (x1 : (⟨S512, .i32⟩ : BufTy).Contents (Elt Ideal)) (r : Fin 512) :
    val_main_v68 (F := Ideal) x1 (ix2 r 0) = BitVec.ofNat 32 r.val := by
  have e : idx_main_v66 (ix2 r 0) = ix1 r := funext fun a => Fin.ext (by match a with | ⟨0, _⟩ => rfl)
  unfold val_main_v68
  refine (concatenate_pair_apply_left (t := S512x2) (s₁ := S512x1) (s₂ := S512x1) (1 : Fin 2) _ _ _
    (ix2 r (0 : Fin 2)) rfl (ix2 r (0 : Fin 1)) (fun b => by match b with | ⟨0, _⟩ => rfl | ⟨1, _⟩ => rfl)).trans ?_
  rw [val_main_v66_apply, e, v60_apply]

/-- The scatter's index array at (r, 1): row r's label. -/
theorem v68_lab (x1 : (⟨S512, .i32⟩ : BufTy).Contents (Elt Ideal)) (r : Fin 512) (h : 0 ≤ (x1 (ix1 r)).toInt) :
    val_main_v68 (F := Ideal) x1 (ix2 r 1) = x1 (ix1 r) := by
  have e : idx_main_v67 (ix2 r 0) = ix1 r := funext fun a => Fin.ext (by match a with | ⟨0, _⟩ => rfl)
  unfold val_main_v68
  refine (concatenate_pair_apply_right (t := S512x2) (s₁ := S512x1) (s₂ := S512x1) (1 : Fin 2) _ _ _
    (ix2 r (1 : Fin 2)) rfl rfl (ix2 r (0 : Fin 1))
    (fun b hb => by match b with | ⟨0, _⟩ => rfl | ⟨1, _⟩ => exact absurd rfl hb) rfl).trans ?_
  rw [val_main_v67_apply, e, v65_apply x1 r h]

/-! ## The two-index gather -/

section Gather
variable {α : Type}

/-- The gather's operand row: the start index's first component, read signed and clamped into the rows. -/
theorem gather_coord0 (idx : IVec S512x2 32) (r : Fin 512) :
    (gather_S512x200000_S512x2_S512_n_01_n_n_01_1_11.operandIdx (ix1 r) idx 0).val
      = min (idx (ix2 r 0)).toInt.toNat 511 := by
  show gather_S512x200000_S512x2_S512_n_01_n_n_01_1_11.start (ix1 r) idx 0
    + gather_S512x200000_S512x2_S512_n_01_n_n_01_1_11.batchCoord (ix1 r) 0
    + gather_S512x200000_S512x2_S512_n_01_n_n_01_1_11.offCoord (ix1 r) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S512x200000.rank) ∈ gather_S512x200000_S512x2_S512_n_01_n_n_01_1_11.startIndexMap from by decide)]
  have hsi : gather_S512x200000_S512x2_S512_n_01_n_n_01_1_11.siIdx (ix1 r)
      ⟨List.idxOf (0 : Fin S512x200000.rank) gather_S512x200000_S512x2_S512_n_01_n_n_01_1_11.startIndexMap,
        List.idxOf_lt_length_iff.2 (by decide)⟩ = ix2 r 0 := by
    funext b; refine Fin.ext ?_
    match b with
    | ⟨0, _⟩ => rfl
    | ⟨1, _⟩ => rfl
  rw [hsi]
  rfl

/-- The gather's operand column: the start index's second component, read signed and clamped into the columns. -/
theorem gather_coord1 (idx : IVec S512x2 32) (r : Fin 512) :
    (gather_S512x200000_S512x2_S512_n_01_n_n_01_1_11.operandIdx (ix1 r) idx 1).val
      = min (idx (ix2 r 1)).toInt.toNat 199999 := by
  show gather_S512x200000_S512x2_S512_n_01_n_n_01_1_11.start (ix1 r) idx 1
    + gather_S512x200000_S512x2_S512_n_01_n_n_01_1_11.batchCoord (ix1 r) 1
    + gather_S512x200000_S512x2_S512_n_01_n_n_01_1_11.offCoord (ix1 r) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S512x200000.rank) ∈ gather_S512x200000_S512x2_S512_n_01_n_n_01_1_11.startIndexMap from by decide)]
  have hsi : gather_S512x200000_S512x2_S512_n_01_n_n_01_1_11.siIdx (ix1 r)
      ⟨List.idxOf (1 : Fin S512x200000.rank) gather_S512x200000_S512x2_S512_n_01_n_n_01_1_11.startIndexMap,
        List.idxOf_lt_length_iff.2 (by decide)⟩ = ix2 r 1 := by
    funext b; refine Fin.ext ?_
    match b with
    | ⟨0, _⟩ => rfl
    | ⟨1, _⟩ => rfl
  rw [hsi]
  rfl

/-- The gather of one element per row at start indices (r, c) that are in range reads the operand at (r, c). -/
theorem gather_apply_of (x : S512x200000.Idx → α) (idx : IVec S512x2 32) (r : Fin 512) (c : Fin 200000)
    (h0 : (idx (ix2 r 0)).toInt = (r.val : Int)) (h1 : (idx (ix2 r 1)).toInt = (c.val : Int)) :
    Host.gather gather_S512x200000_S512x2_S512_n_01_n_n_01_1_11 x idx (ix1 r) = x (ix2 r c) := by
  unfold Host.gather
  congr 1
  funext a
  refine Fin.ext ?_
  match a with
  | ⟨0, _⟩ =>
    refine (gather_coord0 idx r).trans ?_
    show _ = r.val
    have := r.isLt
    omega
  | ⟨1, _⟩ =>
    refine (gather_coord1 idx r).trans ?_
    show _ = c.val
    have := c.isLt
    omega

end Gather

/-! ## The label of a row as a column, and the target logit -/

/-- Row r's label as a column index, under the hypothesis that every label is a column. -/
def lab (x1 : (⟨S512, .i32⟩ : BufTy).Contents (Elt Ideal))
    (hL : ∀ r : Fin 512, 0 ≤ (x1 (ix1 r)).toInt ∧ (x1 (ix1 r)).toInt < 200000) (r : Fin 512) : Fin 200000 :=
  ⟨(x1 (ix1 r)).toNat, by
    have h := hL r
    have e := toInt_eq_toNat_of_nonneg _ h.1
    omega⟩

theorem lab_val (x1 : (⟨S512, .i32⟩ : BufTy).Contents (Elt Ideal))
    (hL : ∀ r : Fin 512, 0 ≤ (x1 (ix1 r)).toInt ∧ (x1 (ix1 r)).toInt < 200000) (r : Fin 512) :
    (lab x1 hL r).val = (x1 (ix1 r)).toNat := rfl

/-- The target logit of row r is the clipped cosine at (r, label r). -/
theorem tl_apply (x0 : (⟨S512x512, .f32⟩ : BufTy).Contents (Elt Ideal)) (x1 : (⟨S512, .i32⟩ : BufTy).Contents (Elt Ideal))
    (x2 : (⟨S200000x512, .f32⟩ : BufTy).Contents (Elt Ideal))
    (hL : ∀ r : Fin 512, 0 ≤ (x1 (ix1 r)).toInt ∧ (x1 (ix1 r)).toInt < 200000) (r : Fin 512) :
    val_main_v28 (F := Ideal) x0 x1 x2 (ix2 r 0) = val_main_v12 (F := Ideal) x0 x2 (ix2 r (lab x1 hL r)) := by
  have e28 : idx_main_v28 (ix2 r 0) = ix1 r := funext fun a => Fin.ext (by match a with | ⟨0, _⟩ => rfl)
  rw [val_main_v28_apply, e28]
  unfold val_main_v27
  generalize val_main_v12 (F := Ideal) x0 x2 = C
  refine gather_apply_of C _ r (lab x1 hL r) ?_ ?_
  · rw [v26_row, toInt_ofNat_small _ r.isLt]
  · rw [v26_lab x1 r (hL r).1, toInt_eq_toNat_of_nonneg _ (hL r).1]; rfl

/-! ## The scatter: one update per row, at the row's label column -/

section ScatterDims
variable {α : Type}

/-- On the row axis an update's landing coordinate is the scatter index's first component read signed
    (both operand axes are inserted window axes: the window coordinate is zero). -/
theorem scatter_coord0 (idx : IVec S512x2 32) (r : Fin 512) :
    scatter_S512x200000_S512x2_S512_n_01_01_1.start (ix1 r) idx 0
      + (scatter_S512x200000_S512x2_S512_n_01_01_1.window (ix1 r) 0 : Int) = (idx (ix2 r 0)).toInt := by
  have hw : scatter_S512x200000_S512x2_S512_n_01_01_1.window (ix1 r) 0 = 0 := by
    unfold ScatterDims.window
    rw [dif_neg (by decide)]
  rw [hw]
  unfold ScatterDims.start
  rw [dif_pos (show (0 : Fin S512x200000.rank) ∈ scatter_S512x200000_S512x2_S512_n_01_01_1.scatterDimsToOperandDims from by decide)]
  have hsi : scatter_S512x200000_S512x2_S512_n_01_01_1.siIdx (ix1 r)
      ⟨List.idxOf (0 : Fin S512x200000.rank) scatter_S512x200000_S512x2_S512_n_01_01_1.scatterDimsToOperandDims,
        List.idxOf_lt_length_iff.2 (by decide)⟩ = ix2 r 0 := by
    funext b; refine Fin.ext ?_
    match b with
    | ⟨0, _⟩ => rfl
    | ⟨1, _⟩ => rfl
  rw [hsi]
  simp only [Nat.cast_zero, add_zero]

/-- On the column axis it is the second component. -/
theorem scatter_coord1 (idx : IVec S512x2 32) (r : Fin 512) :
    scatter_S512x200000_S512x2_S512_n_01_01_1.start (ix1 r) idx 1
      + (scatter_S512x200000_S512x2_S512_n_01_01_1.window (ix1 r) 1 : Int) = (idx (ix2 r 1)).toInt := by
  have hw : scatter_S512x200000_S512x2_S512_n_01_01_1.window (ix1 r) 1 = 0 := by
    unfold ScatterDims.window
    rw [dif_neg (by decide)]
  rw [hw]
  unfold ScatterDims.start
  rw [dif_pos (show (1 : Fin S512x200000.rank) ∈ scatter_S512x200000_S512x2_S512_n_01_01_1.scatterDimsToOperandDims from by decide)]
  have hsi : scatter_S512x200000_S512x2_S512_n_01_01_1.siIdx (ix1 r)
      ⟨List.idxOf (1 : Fin S512x200000.rank) scatter_S512x200000_S512x2_S512_n_01_01_1.scatterDimsToOperandDims,
        List.idxOf_lt_length_iff.2 (by decide)⟩ = ix2 r 1 := by
    funext b; refine Fin.ext ?_
    match b with
    | ⟨0, _⟩ => rfl
    | ⟨1, _⟩ => rfl
  rw [hsi]
  simp only [Nat.cast_zero, add_zero]

/-- Row r's update, its scatter index (r, c) in range, lands at (r, c). -/
theorem scatter_resultIdx (idx : IVec S512x2 32) (r : Fin 512) (c : Fin 200000)
    (h0 : (idx (ix2 r 0)).toInt = (r.val : Int)) (h1 : (idx (ix2 r 1)).toInt = (c.val : Int)) :
    scatter_S512x200000_S512x2_S512_n_01_01_1.resultIdx? (ix1 r) idx = some (ix2 r c) := by
  have hs0 := scatter_coord0 idx r
  have hs1 := scatter_coord1 idx r
  rw [h0] at hs0
  rw [h1] at hs1
  have hr := r.isLt
  have hc := c.isLt
  have hall : ∀ a, 0 ≤ scatter_S512x200000_S512x2_S512_n_01_01_1.start (ix1 r) idx a
        + (scatter_S512x200000_S512x2_S512_n_01_01_1.window (ix1 r) a : Int)
      ∧ scatter_S512x200000_S512x2_S512_n_01_01_1.start (ix1 r) idx a
        + (scatter_S512x200000_S512x2_S512_n_01_01_1.window (ix1 r) a : Int) < (S512x200000.size a : Int) := by
    refine Fin.forall_fin_two.2 ⟨?_, ?_⟩
    · rw [hs0]; show (0 : Int) ≤ r.val ∧ (r.val : Int) < ((512 : Nat) : Int); omega
    · rw [hs1]; show (0 : Int) ≤ c.val ∧ (c.val : Int) < ((200000 : Nat) : Int); omega
  unfold ScatterDims.resultIdx?
  rw [dif_pos hall]
  refine congrArg some (funext (Fin.forall_fin_two.2 ⟨Fin.ext ?_, Fin.ext ?_⟩))
  · show (scatter_S512x200000_S512x2_S512_n_01_01_1.start (ix1 r) idx 0
        + (scatter_S512x200000_S512x2_S512_n_01_01_1.window (ix1 r) 0 : Int)).toNat = r.val
    rw [hs0]; omega
  · show (scatter_S512x200000_S512x2_S512_n_01_01_1.start (ix1 r) idx 1
        + (scatter_S512x200000_S512x2_S512_n_01_01_1.window (ix1 r) 1 : Int)).toNat = c.val
    rw [hs1]; omega

/-- The row an update number names (the updates are one per row, in row order). -/
def rowOf (n : Fin S512.numel) : Fin 512 := S512.rowMajor.symm n 0

theorem symm_eq_ix1 (n : Fin S512.numel) : S512.rowMajor.symm n = ix1 (rowOf n) := eq_ix1 _

theorem rowOf_rowMajor (r : Fin 512) : rowOf (S512.rowMajor (ix1 r)) = r := by
  unfold rowOf; rw [Equiv.symm_apply_apply]

theorem rowOf_injective : Function.Injective rowOf := fun n m h => by
  have := congrArg (fun t : Fin 512 => (ix1 t : S512.Idx)) h
  simp only [← symm_eq_ix1] at this
  exact S512.rowMajor.symm.injective this

/-- THE SCATTER AT (r, col): one update per row r, landing at column c r, the scatter indices in range. Distinct
    rows land at distinct positions, so the result is row r's update when col is c r and the operand otherwise. -/
theorem scatter_apply_of (x : S512x200000.Idx → α) (idx : IVec S512x2 32) (upd : S512.Idx → α) (c : Fin 512 → Fin 200000)
    (h0 : ∀ r : Fin 512, (idx (ix2 r 0)).toInt = (r.val : Int))
    (h1 : ∀ r : Fin 512, (idx (ix2 r 1)).toInt = ((c r).val : Int)) (r : Fin 512) (col : Fin 200000) :
    Host.scatter scatter_S512x200000_S512x2_S512_n_01_01_1 (fun _ b => b) x idx upd (ix2 r col)
      = if (c r).val = col.val then upd (ix1 r) else x (ix2 r col) := by
  have hres : ∀ n : Fin S512.numel, scatter_S512x200000_S512x2_S512_n_01_01_1.resultIdx? (S512.rowMajor.symm n) idx
      = some (ix2 (rowOf n) (c (rowOf n))) := fun n => by
    rw [symm_eq_ix1 n]; exact scatter_resultIdx idx (rowOf n) (c (rowOf n)) (h0 _) (h1 _)
  have hinj : Function.Injective (fun n : Fin S512.numel => (ix2 (rowOf n) (c (rowOf n)) : S512x200000.Idx)) :=
    fun n m h => rowOf_injective (congrFun h 0)
  by_cases hc : (c r).val = col.val
  · rw [if_pos hc]
    have hcol : col = c r := Fin.ext hc.symm
    subst hcol
    have := scatter_set_hit scatter_S512x200000_S512x2_S512_n_01_01_1 x idx upd _ hres hinj (S512.rowMajor (ix1 r))
    simp only [rowOf_rowMajor, Equiv.symm_apply_apply] at this
    exact this
  · rw [if_neg hc]
    refine scatter_set_miss scatter_S512x200000_S512x2_S512_n_01_01_1 x idx upd _ hres (ix2 r col) (fun n e => hc ?_)
    have e0 : rowOf n = r := congrFun e 0
    have e1 : c (rowOf n) = col := congrFun e 1
    rw [e0] at e1
    exact congrArg Fin.val e1

end ScatterDims

/-! ## The result -/

/-- The scatter's result at (r, col): row r's final target logit at its label column, the reweighted cosine elsewhere. -/
theorem scat_apply (x0 : (⟨S512x512, .f32⟩ : BufTy).Contents (Elt Ideal)) (x1 : (⟨S512, .i32⟩ : BufTy).Contents (Elt Ideal))
    (x2 : (⟨S200000x512, .f32⟩ : BufTy).Contents (Elt Ideal)) (x3 : (⟨S1, .f32⟩ : BufTy).Contents (Elt Ideal))
    (hL : ∀ r : Fin 512, 0 ≤ (x1 (ix1 r)).toInt ∧ (x1 (ix1 r)).toInt < 200000) (r : Fin 512) (col : Fin 200000) :
    val_main_v69 (F := Ideal) x0 x1 x2 x3 (ix2 r col)
      = if (x1 (ix1 r)).toNat = col.val then val_main_v44 (F := Ideal) x0 x1 x2 (ix2 r 0)
        else val_main_v54 (F := Ideal) x0 x1 x2 x3 (ix2 r col) := by
  have e55 : idx_main_v55 (ix1 r) = ix2 r 0 :=
    funext fun a => Fin.ext (by match a with | ⟨0, _⟩ => exact Nat.div_one _ | ⟨1, _⟩ => rfl)
  rw [← e55, ← val_main_v55_apply]
  unfold val_main_v69
  generalize val_main_v54 (F := Ideal) x0 x1 x2 x3 = X
  generalize val_main_v55 (F := Ideal) x0 x1 x2 = U
  exact scatter_apply_of X (val_main_v68 (F := Ideal) x1) U (lab x1 hL)
    (fun r' => by rw [v68_row, toInt_ofNat_small _ r'.isLt])
    (fun r' => by rw [v68_lab x1 r' (hL r').1, toInt_eq_toNat_of_nonneg _ (hL r').1]; rfl) r col

/-- THE REFERENCE'S RESULT AT (r, col), scaled by 64. -/
theorem out_apply (x0 : (⟨S512x512, .f32⟩ : BufTy).Contents (Elt Ideal)) (x1 : (⟨S512, .i32⟩ : BufTy).Contents (Elt Ideal))
    (x2 : (⟨S200000x512, .f32⟩ : BufTy).Contents (Elt Ideal)) (x3 : (⟨S1, .f32⟩ : BufTy).Contents (Elt Ideal))
    (hL : ∀ r : Fin 512, 0 ≤ (x1 (ix1 r)).toInt ∧ (x1 (ix1 r)).toInt < 200000) (r : Fin 512) (col : Fin 200000) :
    val_main_v71 (F := Ideal) x0 x1 x2 x3 (ix2 r col)
      = (if (x1 (ix1 r)).toNat = col.val then val_main_v44 (F := Ideal) x0 x1 x2 (ix2 r 0)
          else val_main_v54 (F := Ideal) x0 x1 x2 x3 (ix2 r col)) * Ideal.ofBits .f32 0x42800000#32 := by
  rw [val_main_v71_apply, val_main_v70_apply, val_main_cst_19_apply, scat_apply x0 x1 x2 x3 hL r col]
  simp only [Ideal.mulf_def, Ideal.ofBits_def]

/-! ## The per-row column stages, in terms of the target logit -/

/-- The running-mean input, a one-element array, read as a scalar. -/
theorem t_apply (x3 : (⟨S1, .f32⟩ : BufTy).Contents (Elt Ideal)) : val_main_v48 (F := Ideal) x3 ix0 = x3 (ix1 0) := by
  unfold val_main_v48
  refine shapeCast_apply x3 shapeCasts_S1_S_ ix0 (ix1 0) ?_
  rw [Shape.rowMajor_val_one]
  have h := (S_.rowMajor ix0).isLt
  have h1 : S_.numel = 1 := by decide
  show (0 : Nat) = _
  omega

/-- The margin value of row r: T cos m - sqrt (1 - T²) sin m at the target logit T, the two constants as printed. -/
theorem margin_apply (x0 : (⟨S512x512, .f32⟩ : BufTy).Contents (Elt Ideal)) (x1 : (⟨S512, .i32⟩ : BufTy).Contents (Elt Ideal))
    (x2 : (⟨S200000x512, .f32⟩ : BufTy).Contents (Elt Ideal)) (r : Fin 512) :
    val_main_v37 (F := Ideal) x0 x1 x2 (ix2 r 0)
      = val_main_v28 (F := Ideal) x0 x1 x2 (ix2 r 0) * Ideal.ofBits .f32 0x3F60A940#32
        - Ideal.sqrt (Ideal.ofBits .f32 0x3F800000#32
            - val_main_v28 (F := Ideal) x0 x1 x2 (ix2 r 0) * val_main_v28 (F := Ideal) x0 x1 x2 (ix2 r 0))
          * Ideal.ofBits .f32 0x3EF57744#32 := by
  rw [val_main_v37_apply, val_main_v34_apply, val_main_v33_apply, val_main_cst_7_apply, val_main_v36_apply,
    val_main_v32_apply, val_main_v31_apply, val_main_v30_apply, val_main_cst_6_apply, val_main_v29_apply,
    val_main_v35_apply, val_main_cst_8_apply]
  simp only [Ideal.subf_def, Ideal.mulf_def, Ideal.hostUnary_sqrt_def, Ideal.ofBits_def]

/-- The final target logit of row r: the margin value where the target logit exceeds the threshold, the target
    logit less a constant elsewhere. -/
theorem ftl_apply (x0 : (⟨S512x512, .f32⟩ : BufTy).Contents (Elt Ideal)) (x1 : (⟨S512, .i32⟩ : BufTy).Contents (Elt Ideal))
    (x2 : (⟨S200000x512, .f32⟩ : BufTy).Contents (Elt Ideal)) (r : Fin 512) :
    val_main_v44 (F := Ideal) x0 x1 x2 (ix2 r 0)
      = Scalar.select (FloatOps.cmpf (F := Ideal) (φ := .f32) .ogt (val_main_v28 (F := Ideal) x0 x1 x2 (ix2 r 0))
            (Ideal.ofBits .f32 0xBF60A940#32))
          (val_main_v37 (F := Ideal) x0 x1 x2 (ix2 r 0))
          (val_main_v28 (F := Ideal) x0 x1 x2 (ix2 r 0) - Ideal.ofBits .f32 0x3E757744#32) := by
  rw [val_main_v44_apply, val_main_v41_apply, val_main_v40_apply, val_main_cst_9_apply, val_main_v43_apply,
    val_main_v42_apply, val_main_cst_10_apply]
  simp only [Ideal.subf_def, Ideal.ofBits_def]

/-- The updated running mean: the mean of the 512 target logits times one constant plus the input times another. -/
theorem mean_apply (x0 : (⟨S512x512, .f32⟩ : BufTy).Contents (Elt Ideal)) (x1 : (⟨S512, .i32⟩ : BufTy).Contents (Elt Ideal))
    (x2 : (⟨S200000x512, .f32⟩ : BufTy).Contents (Elt Ideal)) (x3 : (⟨S1, .f32⟩ : BufTy).Contents (Elt Ideal)) :
    val_main_v50 (F := Ideal) x0 x1 x2 x3 ix0
      = Ideal.div (Ideal.ofBits .f32 0x00000000#32 + ∑ r : Fin 512, val_main_v28 (F := Ideal) x0 x1 x2 (ix2 r 0))
            (Ideal.ofBits .f32 0x44000000#32) * Ideal.ofBits .f32 0x3C23D70A#32
        + Ideal.ofBits .f32 0x3F7D70A4#32 * x3 (ix1 0) := by
  rw [val_main_v50_apply, val_main_v47_apply, val_main_v46_apply, val_main_v45_apply, val_main_cst_11_apply,
    val_main_cst_12_apply, val_main_cst_13_apply, val_main_v49_apply, val_main_cst_14_apply, t_apply, sum_idx2]
  simp only [Fin.sum_univ_one, Ideal.addf_def, Ideal.mulf_def, Ideal.hostDivf_def, Ideal.ofBits_def]

end Cert.ReferenceIdeal.RefIndex

end
-- ==== Proof.PreFacts.lean ====
import proofs.«406260_j17910013625058_3_alg».proof.Pre_finite_inputs
import proofs.«406260_j17910013625058_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

/-!
# The precondition read back

The precondition is the conjunction of five `all`-reductions: every entry of the three float
inputs has absolute value strictly below `+∞`, and every label lies in `[0, 200000)` as a
signed 32-bit integer. Over the extended reals, `|x| < ⊤` with `|x| = max x (-x)` excludes both
`⊤` and `⊥`, so `x` is (the image of) a real number.
-/

namespace Cert.PreFacts

open Idealize.ShloMosaic Idealize.ShloMosaic.ValueIdx
open Cert.Pre_finite_inputs

attribute [local instance] Cert.Pre_finite_inputs.Gen.facts

/-- The rank-0 shape has a single index. -/
instance : Subsingleton S_.Idx := ⟨fun a b => funext fun d => d.elim0⟩

/-- The pattern `0x7F800000` denotes `+∞`. -/
theorem inf_eq_top : Ideal.ofBits .f32 0x7F800000#32 = (⊤ : EReal) := by
  simp [Ideal.ofBits, Ideal.ieee]

/-- An extended real whose absolute value `max x (-x)` is strictly below `⊤` is a real:
    `x = ⊤` gives `max ⊤ ⊥ = ⊤`, and `x = ⊥` gives `max ⊥ ⊤ = ⊤`. -/
theorem real_of_abs_lt_top (x : EReal) (h : max x (-x) < ⊤) : ∃ a : ℝ, x = (a : EReal) := by
  induction x using EReal.rec with
  | bot => simp at h
  | coe a => exact ⟨a, rfl⟩
  | top => simp at h

/-- The float compare of the precondition at one element. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  apply real_of_abs_lt_top
  have h' : BitVec.ofBool (decide (max x (-x) < Ideal.ofBits .f32 0x7F800000#32)) = 1#1 := h
  rw [inf_eq_top, StableHlo.Predicate.ofBool_eq_one_iff, decide_eq_true_eq] at h'
  exact h'

theorem decode (x0 : FVec Ideal S512x512 .f32) (x1 : IVec S512 32) (x2 : FVec Ideal S200000x512 .f32)
    (x3 : FVec Ideal S1 .f32)
    (h : Cert.Pre_finite_inputs.fn (F := Ideal) x0 x1 x2 x3 = (fun _ => 1#1)) :
    (∀ i, ∃ a : ℝ, x0 i = (a : EReal)) ∧ (∀ i, ∃ a : ℝ, x2 i = (a : EReal)) ∧ (∀ i, ∃ a : ℝ, x3 i = (a : EReal))
      ∧ (∀ r : Fin 512, 0 ≤ (x1 (ix1 r)).toInt ∧ (x1 (ix1 r)).toInt < 200000) := by
  have h0 := congrFun h ix0
  dsimp only [Cert.Pre_finite_inputs.fn, Cert.Pre_finite_inputs.fn_part1, andi] at h0
  obtain ⟨h1, hlt⟩ := IntOp.andi_eq_one.1 h0
  obtain ⟨h2, hge⟩ := IntOp.andi_eq_one.1 h1
  obtain ⟨h3, ht⟩ := IntOp.andi_eq_one.1 h2
  obtain ⟨hf, hw⟩ := IntOp.andi_eq_one.1 h3
  refine ⟨fun i => ?_, fun i => ?_, fun i => ?_, fun r => ⟨?_, ?_⟩⟩
  · exact real_of_cmp _ (Host.reduce_andi_all _ _ _ _ _ hf i)
  · exact real_of_cmp _ (Host.reduce_andi_all _ _ _ _ _ hw i)
  · exact real_of_cmp _ (Host.reduce_andi_all _ _ _ _ _ ht i)
  · have := Host.reduce_andi_all _ _ _ _ _ hge (ix1 r)
    have h' : (0#32 : BitVec 32).toInt ≤ (x1 (ix1 r)).toInt := IntOp.cmpi_sge.1 this
    rwa [show (0#32 : BitVec 32).toInt = 0 from by decide] at h'
  · have := Host.reduce_andi_all _ _ _ _ _ hlt (ix1 r)
    have h' : (x1 (ix1 r)).toInt < (200000#32 : BitVec 32).toInt := IntOp.cmpi_slt.1 this
    rwa [show (200000#32 : BitVec 32).toInt = 200000 from by decide] at h'

end Cert.PreFacts
-- ==== Proof.Algebra.lean ====
/-
  The three facts that join the kernel's tile arithmetic to the reference's whole-array arithmetic.

  1. The cosine. The kernel normalises AFTER the product: `(Σ f·w) · rsqrt (max (Σ w²) D²)`; the reference BEFORE it:
     `Σ f · (w / max (√(Σ w²)) D)`. For real entries these agree: `√(max s D²) = max (√s) D` for `D ≥ 0`, the guarded
     norm is positive, and a real factor moves across a finite sum. (At an infinite entry neither step is sound,
     which is why the inputs are assumed finite.)
  2. The label's column. Tile `t` tests `j = label − 2560·t` in 32-bit words on column `j < 2560` of the tile; for a
     label in `[0, 200000)` and a column `2560·t + j` of the array that is `label = column`.
  3. The scale. The kernel scales the cosine by 64 before reweighting it, the reference after; multiplication of
     extended reals is commutative and associative.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Margin

open Idealize.ShloMosaic
open scoped BigOperators

/-- A finite sum of real numbers, read in the extended reals. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The larger of two real numbers, read in the extended reals. -/
theorem coe_max (a b : ℝ) : max ((a : ℝ) : EReal) ((b : ℝ) : EReal) = ((max a b : ℝ) : EReal) :=
  (EReal.coe_strictMono.monotone.map_max).symm

/-- The square root of the larger is the larger square root. -/
theorem sqrt_max (a b : ℝ) : Real.sqrt (max a b) = max (Real.sqrt a) (Real.sqrt b) := by
  rcases le_total a b with h | h
  · rw [max_eq_right h, max_eq_right (Real.sqrt_le_sqrt h)]
  · rw [max_eq_left h, max_eq_left (Real.sqrt_le_sqrt h)]

/-- THE COSINE LAW: scaling the product of a real row `f` with a real row `w` by the reciprocal square root of the
    guarded squared norm of `w` (guard `D²`) is the product of `f` with `w` divided by its guarded norm (guard `D`). -/
theorem cos_law {n : Nat} (D : ℝ) (hD : 0 < D) (f w : Fin n → ℝ) :
    (∑ k, ((f k : ℝ) : EReal) * ((w k : ℝ) : EReal)) * Ideal.rsqrt (max (∑ k, ((w k : ℝ) : EReal) * ((w k : ℝ) : EReal)) ((D * D : ℝ) : EReal))
      = ∑ k, ((f k : ℝ) : EReal) * Ideal.div ((w k : ℝ) : EReal)
          (max (Ideal.sqrt ((0 : EReal) + ∑ k', ((w k' : ℝ) : EReal) * ((w k' : ℝ) : EReal))) ((D : ℝ) : EReal)) := by
  have hS : (∑ k, ((w k : ℝ) : EReal) * ((w k : ℝ) : EReal)) = ((∑ k, w k * w k : ℝ) : EReal) := by
    rw [← coe_sum]; exact Finset.sum_congr rfl fun k _ => (EReal.coe_mul _ _).symm
  have hP : (∑ k, ((f k : ℝ) : EReal) * ((w k : ℝ) : EReal)) = ((∑ k, f k * w k : ℝ) : EReal) := by
    rw [← coe_sum]; exact Finset.sum_congr rfl fun k _ => (EReal.coe_mul _ _).symm
  set S : ℝ := ∑ k, w k * w k with hSdef
  have hS0 : 0 ≤ S := Finset.sum_nonneg fun k _ => mul_self_nonneg (w k)
  have hDD : 0 < D * D := mul_pos hD hD
  have hmax : 0 < max S (D * D) := lt_max_of_lt_right hDD
  -- the guarded norm
  set N : ℝ := max (Real.sqrt S) D with hNdef
  have hN : 0 < N := lt_max_of_lt_right hD
  have hsq : Real.sqrt (max S (D * D)) = N := by
    rw [sqrt_max, Real.sqrt_mul_self hD.le]
  rw [hS, hP, zero_add, coe_max, Ideal.rsqrt_coe, if_neg (not_lt.mpr hmax.le), if_neg hmax.ne', hsq,
    Ideal.sqrt_coe, if_neg (not_lt.mpr hS0), coe_max]
  have hterm : ∀ k, ((f k : ℝ) : EReal) * Ideal.div ((w k : ℝ) : EReal) ((N : ℝ) : EReal) = ((f k * (w k * (1 / N)) : ℝ) : EReal) := by
    intro k
    rw [Ideal.div_coe hN.ne', ← EReal.coe_mul, ← EReal.coe_mul]
  rw [Finset.sum_congr rfl fun k _ => hterm k, coe_sum, ← EReal.coe_mul]
  congr 1
  rw [Finset.sum_mul]
  exact Finset.sum_congr rfl fun k _ => by rw [one_div]; ring

/-- A real entry divided by the guarded norm of a real row is a real number: the guarded norm is a positive real. -/
theorem div_guard_real {n : Nat} (D : ℝ) (hD : 0 < D) (x : ℝ) (v : Fin n → ℝ) :
    ∃ a : ℝ, Ideal.div ((x : ℝ) : EReal)
        (max (Ideal.sqrt ((0 : EReal) + ∑ k, ((v k : ℝ) : EReal) * ((v k : ℝ) : EReal))) ((D : ℝ) : EReal)) = ((a : ℝ) : EReal) := by
  have hS : (∑ k, ((v k : ℝ) : EReal) * ((v k : ℝ) : EReal)) = ((∑ k, v k * v k : ℝ) : EReal) := by
    rw [← coe_sum]; exact Finset.sum_congr rfl fun k _ => (EReal.coe_mul _ _).symm
  have hS0 : 0 ≤ ∑ k, v k * v k := Finset.sum_nonneg fun k _ => mul_self_nonneg (v k)
  have hN : 0 < max (Real.sqrt (∑ k, v k * v k)) D := lt_max_of_lt_right hD
  refine ⟨x * (1 / max (Real.sqrt (∑ k, v k * v k)) D), ?_⟩
  rw [hS, zero_add, Ideal.sqrt_coe, if_neg (not_lt.mpr hS0), coe_max, Ideal.div_coe hN.ne', ← EReal.coe_mul]

/-- THE SCALE: the reweighted cosine scaled by `s`, either way round. -/
theorem scale_comm (c s u : EReal) : (c * s) * (u + c) = (c * (u + c)) * s := by
  rw [mul_assoc, mul_assoc, mul_comm s (u + c)]

/-- THE LABEL'S COLUMN: for a label word in `[0, 200000)` and a column `2560·t + j` of the array (`j < 2560`,
    `t < 79`), the tile's 32-bit test `j = label − 2560·t` holds exactly when the label is that column. -/
theorem hit_iff (lbl : BitVec 32) (h0 : 0 ≤ lbl.toInt) (h1 : lbl.toInt < 200000) (t j : Nat) (ht : t < 79) (hj : j < 2560) :
    IntOp.cmpi .eq (BitVec.ofNat 32 j) (lbl - Scalar.muli (BitVec.ofNat 32 t) 2560#32) = 1#1 ↔ lbl.toNat = 2560 * t + j := by
  have hl : lbl.toNat < 200000 := by
    have := BitVec.toInt_eq_toNat_cond lbl
    split at this <;> omega
  rw [StableHlo.Predicate.cmpi_eq_iff]
  unfold Scalar.muli IntOp.muli
  constructor
  · intro h
    have h' : lbl = BitVec.ofNat 32 j + BitVec.ofNat 32 t * 2560#32 := by
      rw [h]; exact (BitVec.sub_add_cancel _ _).symm
    rw [h']
    simp only [BitVec.toNat_add, BitVec.toNat_mul, BitVec.toNat_ofNat, Nat.reducePow]
    omega
  · intro h
    have h' : lbl = BitVec.ofNat 32 (2560 * t + j) :=
      BitVec.eq_of_toNat_eq (by rw [h, BitVec.toNat_ofNat]; simp only [Nat.reducePow]; omega)
    rw [h']
    apply BitVec.eq_of_toNat_eq
    simp only [BitVec.toNat_sub, BitVec.toNat_mul, BitVec.toNat_ofNat, Nat.reducePow]
    omega

end Cert.Margin

end
-- ==== Proof.Consts.lean ====
/-
  The one float literal whose VALUE the proof needs: the reference's norm guard, the f32 word `0x2B8CBCCC`
  (the nearest f32 to 10⁻¹²), denotes the dyadic rational `2305843 / 2⁶¹`; and the value the kernel's squared-norm
  guard is named (`5316911940649 / 2¹²²`) is exactly its square. Every other literal is the same word on both sides
  and is never evaluated.
-/
import Idealize.ShloMosaic.PureOps.Ideal

noncomputable section

namespace Cert.Margin

open Idealize.ShloMosaic

/-- The reference's norm guard as a real number. -/
def guard : ℝ := 2305843 / 2305843009213693952

theorem guard_pos : 0 < guard := by unfold guard; norm_num

/-- The word `0x2B8CBCCC` denotes the guard. -/
theorem ofBits_guard : Ideal.ofBits .f32 0x2B8CBCCC#32 = ((guard : ℝ) : EReal) := by
  unfold guard
  simp [Ideal.ofBits, Ideal.ieee, -EReal.coe_mul]; norm_num

/-- The named value of the kernel's squared-norm guard is the guard's square. -/
theorem guard_sq : (5316911940649 / 5316911983139663491615228241121378304 : ℝ) = guard * guard := by
  unfold guard; norm_num

end Cert.Margin

end
-- ==== Proof.CellBridge.lean ====
/-
  One cell of the result, kernel against reference.

  At row `r`, column `col` of the result the kernel's tile arithmetic gives: the scaled target where `col` is the
  row's label, else the cosine — the product of the normalised feature row with the RAW weight row, scaled by the
  reciprocal square root of the guarded squared norm — scaled by 64 and reweighted; the reference gives: the target
  where `col` is the label (its scatter), else the reweighted cosine — the product with the NORMALISED weight row —,
  all scaled by 64. They agree on finite inputs with labels in range, by the three facts of the module on the
  margin algebra: the cosine law (with the kernel's guard read as the square of the reference's), the label test,
  and commuting the scale; and because both programs derive the margin column, the target column and the running mean
  by the same operations from target-logit columns that are equal (the kernel's from the gathered label rows, the
  reference's gathered from its cosine array: the same sum either way).
-/
import proofs.«406260_j17910013625058_3_alg».proof.Proof.IdealPayload
import proofs.«406260_j17910013625058_3_alg».proof.Proof.HostGlue
import proofs.«406260_j17910013625058_3_alg».proof.Proof.TargetLogit
import proofs.«406260_j17910013625058_3_alg».proof.Proof.RefIndex
import proofs.«406260_j17910013625058_3_alg».proof.Proof.PreFacts
import proofs.«406260_j17910013625058_3_alg».proof.Proof.Algebra
import proofs.«406260_j17910013625058_3_alg».proof.Proof.Consts
import Idealize.ShloMosaic.PureOps.IdealRules

set_option pp.deepTerms false
set_option pp.maxSteps 20000

noncomputable section

namespace Cert.KernelIdeal.Bridge

open Idealize.ShloMosaic Idealize.ShloMosaic.TcCoe Idealize.ShloMosaic.ValueIdx Idealize.SL.Sem
open Cert.KernelIdeal Cert.KernelIdeal.Gen
open Cert.ReferenceIdeal.Read (val_main_v4 val_main_v9 val_main_v12 val_main_v28 val_main_v37 val_main_v44 val_main_v50 val_main_v54 val_main_v71)
open scoped BigOperators

attribute [local instance] Cert.Pre_finite_inputs.Gen.facts

/-- The kernel's squared-norm guard, by its name, is the square of the reference's norm guard. -/
theorem epsq_val : Named.named (F := Ideal) Cert.KernelIdeal.κ "eps_sq" (φ := .f32) 0x179ABE15#32
    = ((Cert.Margin.guard * Cert.Margin.guard : ℝ) : EReal) := by
  rw [← Cert.Margin.guard_sq]
  exact IdealRules.named_const.ideal_named_scalar _ _ _ _ rfl

section
variable (X0 : (⟨S512x512, .f32⟩ : BufTy).Contents (Elt Ideal)) (X1 : (⟨S512, .i32⟩ : BufTy).Contents (Elt Ideal))
  (X2 : (⟨S200000x512, .f32⟩ : BufTy).Contents (Elt Ideal)) (X3 : (⟨S1, .f32⟩ : BufTy).Contents (Elt Ideal))

/-- THE COSINE: the kernel's, of the normalised feature row and the raw weight row, is the reference's clipped cosine. -/
theorem cos_eq (hx0 : ∀ i, ∃ a : ℝ, X0 i = (a : EReal)) (hx2 : ∀ i, ∃ a : ℝ, X2 i = (a : EReal)) (r : Fin 512) (col : Fin 200000) :
    Pay.cosK (fun k => val_main_v9 (F := Ideal) X0 (ix2 r k)) (fun k => X2 (ix2 col k))
      = val_main_v12 (F := Ideal) X0 X2 (ix2 r col) := by
  rw [Cert.ReferenceIdeal.RefIndex.cos_apply]
  unfold Pay.cosK
  choose w hw using fun k : Fin 512 => hx2 (ix2 col k)
  choose x hx using fun k : Fin 512 => hx0 (ix2 r k)
  have hfn : ∀ k : Fin 512, ∃ a : ℝ, val_main_v9 (F := Ideal) X0 (ix2 r k) = (a : EReal) := fun k => by
    rw [Cert.ReferenceIdeal.RefIndex.fn_apply, Ideal.ofBits_zero_f32, Cert.Margin.ofBits_guard]
    simp only [hx]
    exact Cert.Margin.div_guard_real _ Cert.Margin.guard_pos (x k) x
  choose f hf using hfn
  refine congrArg (fun z => min (Ideal.ofBits .f32 0x3F800000#32) (max (Ideal.ofBits .f32 0xBF800000#32) z)) ?_
  simp only [Cert.ReferenceIdeal.RefIndex.wn_apply, hf, hw, Ideal.ofBits_zero_f32, Cert.Margin.ofBits_guard, epsq_val]
  exact Cert.Margin.cos_law _ Cert.Margin.guard_pos f w

end

variable (m : (ℓ : Loc nD τ sig) → Buf (Elt Ideal) ℓ)

/-- The four argument arrays on core `c`, at their literal types. -/
abbrev arg0 (c : Dev nD) : (⟨S512x512, .f32⟩ : BufTy).Contents (Elt Ideal) := m ((c : Thread nD τ).loc main_arg0)
abbrev arg1 (c : Dev nD) : (⟨S512, .i32⟩ : BufTy).Contents (Elt Ideal) := m ((c : Thread nD τ).loc main_arg1)
abbrev arg2 (c : Dev nD) : (⟨S200000x512, .f32⟩ : BufTy).Contents (Elt Ideal) := m ((c : Thread nD τ).loc main_arg2)
abbrev arg3 (c : Dev nD) : (⟨S1, .f32⟩ : BufTy).Contents (Elt Ideal) := m ((c : Thread nD τ).loc main_arg3)

/-- THE TARGET LOGIT: the kernel's column (row products of the normalised features with the normalised gathered label
    rows) is the reference's (its clipped cosine gathered at the labels). -/
theorem tl_eq (c : Dev nD) (hL : ∀ r : Fin 512, 0 ≤ ((arg1 m c) (ix1 r)).toInt ∧ ((arg1 m c) (ix1 r)).toInt < 200000) :
    (V m c main_v20 : S512x1.Idx → EReal) = val_main_v28 (F := Ideal) (arg0 m c) (arg1 m c) (arg2 m c) := by
  funext i
  obtain ⟨r, z, rfl⟩ : ∃ (r : Fin 512) (z : Fin 1), i = ix2 r z := ⟨i 0, i 1, eq_ix2 i⟩
  obtain rfl : z = 0 := Subsingleton.elim _ _
  rw [Target.V_tl_apply m c r _ _ _ rfl rfl rfl (hL r) (Cert.ReferenceIdeal.RefIndex.lab _ hL r) rfl,
    Cert.ReferenceIdeal.RefIndex.tl_apply _ _ _ hL r, Cert.ReferenceIdeal.RefIndex.cos_apply]
  simp only [Cert.ReferenceIdeal.RefIndex.wn_apply, Ideal.ofBits_zero_f32, zero_add]

/-- ONE CELL: the kernel's cell function on what the region's windows hold is the reference's result there. -/
theorem cell_eq (c : Dev nD)
    (hpre : Cert.Pre_finite_inputs.fn (F := Ideal) (arg0 m c) (arg1 m c) (arg2 m c) (arg3 m c) = (fun _ => 1#1))
    (r : Fin 512) (col : Fin 200000) :
    Pay.cellK (col.val / 2560) (fun k => V m c main_v45 (ix2 r k)) (fun k => V m c main_arg2 (ix2 col k))
        (V m c main_v44 (ix2 r 0)) (V m c main_v29 (ix2 r 0)) (V m c main_v36 (ix2 r 0)) (V m c main_v43 (ix2 0 0))
        ⟨col.val % 2560, Nat.mod_lt _ (by norm_num)⟩
      = val_main_v71 (F := Ideal) (arg0 m c) (arg1 m c) (arg2 m c) (arg3 m c) (ix2 r col) := by
  obtain ⟨hx0, hx2, hx3, hL⟩ := Cert.PreFacts.decode _ _ _ _ hpre
  have htl := tl_eq m c hL
  rw [Cert.ReferenceIdeal.RefIndex.out_apply _ _ _ _ hL r col, Cert.ReferenceIdeal.RefIndex.rew_apply]
  have e45 : (fun k : Fin 512 => V m c main_v45 (ix2 r k)) = fun k => val_main_v9 (F := Ideal) (arg0 m c) (ix2 r k) :=
    funext fun k => congrFun (Glue.V_fn m c) (ix2 r k)
  have e2 : (fun k : Fin 512 => V m c main_arg2 (ix2 col k)) = fun k => (arg2 m c) (ix2 col k) :=
    funext fun k => congrFun (V_main_arg2 m c) (ix2 col k)
  rw [e45, e2, Glue.V_lbl, Glue.V_ctm, Glue.V_ftls, Glue.V_tnew, htl, ← Glue.ref_ctm, Glue.ref_ftl, ← Glue.ref_tnew]
  unfold Pay.cellK
  rw [cos_eq _ _ hx0 hx2 r col]
  have hc : col.val < 200000 := col.isLt
  by_cases hh : ((arg1 m c) (ix1 r)).toNat = col.val
  · have hb := (Cert.Margin.hit_iff ((arg1 m c) (ix1 r)) (hL r).1 (hL r).2 (col.val / 2560) (col.val % 2560) (by omega)
      (Nat.mod_lt _ (by norm_num))).mpr (by omega)
    rw [hb, select_one, if_pos hh]
  · have hb : IntOp.cmpi .eq (BitVec.ofNat 32 (col.val % 2560))
        ((arg1 m c) (ix1 r) - Scalar.muli (BitVec.ofNat 32 (col.val / 2560)) 2560#32) = 0#1 :=
      eq_zero_of_ne_one fun h1 => hh (by
        have := (Cert.Margin.hit_iff ((arg1 m c) (ix1 r)) (hL r).1 (hL r).2 (col.val / 2560) (col.val % 2560) (by omega)
          (Nat.mod_lt _ (by norm_num))).mp h1
        omega)
    rw [hb, select_zero, if_neg hh]
    unfold Scalar.select
    split
    · exact Cert.Margin.scale_comm _ _ _
    · rfl

end Cert.KernelIdeal.Bridge

end
-- ==== Proof.lean ====
/-
  CurricularFace margin-softmax: a tiled kernel that streams the class-weight matrix once, in 79 tiles of 2560
  classes, against the plain reference that normalises the whole matrix first.

  The claims. Both programs (and the word-level kernel) run to the end without a fault and leave their arguments
  unchanged; the idealized kernel names one constant (its squared-norm guard, read as the square of the reference's
  norm guard); and on finite inputs with labels in `[0, 200000)` the two idealized programs end with the same
  result, element by element.

  How. The kernel's run is the pipeline's: its proof data name what each grid point's body stores (the tile
  `outPay` of the point's blocks), the last tile's 2240 rows past the weight array's end holding words nothing
  names — which is harmless because column `j` of a stored tile is computed from row `j` of the weight tile alone, and the
  write-back keeps only the columns inside the result array. The 79 write-backs tile the result, so the final
  array is one function of the arguments, read cell by cell (`final_apply`). The reference's result is read cell by
  cell off its run (its scatter is one update per row, at the row's label). The two cells agree (`cell_eq`): the
  cosine law moves the normalisation across the product, the tile's 32-bit label test is `label = column`, and the
  scale by 64 commutes with the reweighting; the margin column, the target column and the running mean are the same
  operations on equal target-logit columns.
-/
import proofs.«406260_j17910013625058_3_alg».proof.Defs
import proofs.«406260_j17910013625058_3_alg».proof.Proof.Gen.Kernel
import proofs.«406260_j17910013625058_3_alg».proof.Proof.Gen.KernelIdeal
import proofs.«406260_j17910013625058_3_alg».proof.Proof.Gen.ReferenceIdeal
import proofs.«406260_j17910013625058_3_alg».proof.Proof.Gen.ReferenceIdeal.Run
import proofs.«406260_j17910013625058_3_alg».proof.Proof.Gen.ReferenceIdeal.Read
import proofs.«406260_j17910013625058_3_alg».proof.Proof.Gen.Pre_finite_inputs
import proofs.«406260_j17910013625058_3_alg».proof.Proof.WordFrame
import proofs.«406260_j17910013625058_3_alg».proof.Proof.IdealFinal
import proofs.«406260_j17910013625058_3_alg».proof.Proof.CellBridge
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Pre_finite_inputs.Gen.facts

/-- The word-level kernel's frame. -/
theorem frame_k : Cert.frame_Kernel (hKernel := Cert.Kernel.Gen.facts) (hPre_finite_inputs := Cert.Pre_finite_inputs.Gen.facts) :=
  fun m ρ _ => Cert.Kernel.WordRun.frame (F := Bits) m ρ

/-- The idealized kernel's frame. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ (Cert.KernelIdeal.Final.local_ideal m)

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one named constant: the table gives the kernel's squared-norm guard the square of the reference's norm guard. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- The kernel's final result array is the reference's result as a function of the same arguments. -/
theorem final_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = (fun _ => 1#1)) :
    Cert.KernelIdeal.Run.final (F := Ideal) m c
      = Cert.ReferenceIdeal.Read.val_main_v71 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨r, col, rfl⟩ : ∃ (r : Fin 512) (col : Fin 200000), i = ix2 r col := ⟨i 0, i 1, eq_ix2 i⟩
  rw [Cert.KernelIdeal.Final.final_apply m c r col]
  exact Cert.KernelIdeal.Bridge.cell_eq m c hpre r col

/-- Equal results on finite inputs with labels in range. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.final (F := Ideal) m c,
    Cert.KernelIdeal.Run.run_value (F := Ideal) m ρ (Cert.KernelIdeal.Final.local_ideal m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2]
  exact (final_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
